-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x56x56 : Shape := ⟨4, ![32, 64, 56, 56]⟩
abbrev S128x576 : Shape := ⟨2, ![128, 576]⟩
abbrev S128 : Shape := ⟨1, ![128]⟩
abbrev S_ : Shape := ⟨0, ![]⟩

class Facts : Prop where
  bcast_S_S32x64x56x56 : S_.BroadcastsInDim S32x64x56x56 (![] : Fin 0 → Fin S32x64x56x56.rank)
  reducesTo_S32x64x56x56_S_d0_1_2_3 : S32x64x56x56.ReducesTo [0, 1, 2, 3] S_
  h_S_ : 0 < S_.numel
  bcast_S_S128x576 : S_.BroadcastsInDim S128x576 (![] : Fin 0 → Fin S128x576.rank)
  reducesTo_S128x576_S_d0_1 : S128x576.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S32x64x56x56 .f32) (main_arg1 : FVec F S128x576 .f32) (main_arg2 : FVec F S128 .f32) : IVec S_ 1 :=
  let main_v0 : FVec F S32x64x56x56 .f32 := Host.absf main_arg0
  let main_cst : FVec F S_ .f32 := constant S_ .f32 0x7F800000#32
  let main_v1 : FVec F S32x64x56x56 .f32 := broadcastInDim S32x64x56x56 ![] bcast_S_S32x64x56x56 main_cst
  let main_v2 : IVec S32x64x56x56 1 := cmpf .olt main_v0 main_v1
  let main_c : IVec S_ 1 := constantI S_ 1 1#1
  let main_v3 : IVec S_ 1 := (fun x v => Host.reduce IntOp.andi x v reducesTo_S32x64x56x56_S_d0_1_2_3 h_S_) main_v2 main_c
  let main_v4 : FVec F S128x576 .f32 := Host.absf main_arg1
  let main_cst_0 : FVec F S_ .f32 := constant S_ .f32 0x7F800000#32
  let main_v5 : FVec F S128x576 .f32 := broadcastInDim S128x576 ![] bcast_S_S128x576 main_cst_0
  let main_v6 : IVec S128x576 1 := cmpf .olt main_v4 main_v5
  let main_c_1 : IVec S_ 1 := constantI S_ 1 1#1
  let main_v7 : IVec S_ 1 := (fun x v => Host.reduce IntOp.andi x v reducesTo_S128x576_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S32x64x56x56 : Shape := ⟨4, ![32, 64, 56, 56]⟩
abbrev S128x576 : Shape := ⟨2, ![128, 576]⟩
abbrev S128 : Shape := ⟨1, ![128]⟩
abbrev S_ : Shape := ⟨0, ![]⟩
abbrev S32x64x58x58 : Shape := ⟨4, ![32, 64, 58, 58]⟩
abbrev S128x64x9 : Shape := ⟨3, ![128, 64, 9]⟩
abbrev S9x128x64 : Shape := ⟨3, ![9, 128, 64]⟩
abbrev S3x3x128x64 : Shape := ⟨4, ![3, 3, 128, 64]⟩
abbrev S3x128x3x64 : Shape := ⟨4, ![3, 128, 3, 64]⟩
abbrev S3x128x192 : Shape := ⟨3, ![3, 128, 192]⟩
abbrev S128x1 : Shape := ⟨2, ![128, 1]⟩
abbrev S32x128x3136 : Shape := ⟨3, ![32, 128, 3136]⟩
abbrev S1x64x58x58 : Shape := ⟨4, ![1, 64, 58, 58]⟩
abbrev S1x128x3136 : Shape := ⟨3, ![1, 128, 3136]⟩
abbrev S64x58x58 : Shape := ⟨3, ![64, 58, 58]⟩
abbrev S128x3136 : Shape := ⟨2, ![128, 3136]⟩
abbrev S64x56x56 : Shape := ⟨3, ![64, 56, 56]⟩
abbrev S192x56x56 : Shape := ⟨3, ![192, 56, 56]⟩
abbrev S192x3136 : Shape := ⟨2, ![192, 3136]⟩
abbrev S1x128x192 : Shape := ⟨3, ![1, 128, 192]⟩
abbrev S128x192 : Shape := ⟨2, ![128, 192]⟩
abbrev S32x128x56x56 : Shape := ⟨4, ![32, 128, 56, 56]⟩

abbrev nBuf : Space → Nat
  | .hbm => 14
  | .vmem => 6
  | .smem => 0
  | _ => 0

abbrev bufTy : (tb : Table) → Fin (tcTables nBuf tb) → BufTy
  | .hbm, ⟨0, _⟩ => ⟨S32x64x56x56, .f32⟩
  | .hbm, ⟨1, _⟩ => ⟨S128x576, .f32⟩
  | .hbm, ⟨2, _⟩ => ⟨S128, .f32⟩
  | .hbm, ⟨3, _⟩ => ⟨S_, .i32⟩
  | .hbm, ⟨4, _⟩ => ⟨S_, .f32⟩
  | .hbm, ⟨5, _⟩ => ⟨S32x64x58x58, .f32⟩
  | .hbm, ⟨6, _⟩ => ⟨S128x64x9, .f32⟩
  | .hbm, ⟨7, _⟩ => ⟨S9x128x64, .f32⟩
  | .hbm, ⟨8, _⟩ => ⟨S3x3x128x64, .f32⟩
  | .hbm, ⟨9, _⟩ => ⟨S3x128x3x64, .f32⟩
  | .hbm, ⟨10, _⟩ => ⟨S3x128x192, .f32⟩
  | .hbm, ⟨11, _⟩ => ⟨S128x1, .f32⟩
  | .hbm, ⟨12, _⟩ => ⟨S32x128x3136, .f32⟩
  | .hbm, ⟨13, _⟩ => ⟨S32x128x56x56, .f32⟩
  | .local _ .vmem, ⟨0, _⟩ => ⟨S1x64x58x58, .f32⟩
  | .local _ .vmem, ⟨1, _⟩ => ⟨S1x64x58x58, .f32⟩
  | .local _ .vmem, ⟨2, _⟩ => ⟨S3x128x192, .f32⟩
  | .local _ .vmem, ⟨3, _⟩ => ⟨S128x1, .f32⟩
  | .local _ .vmem, ⟨4, _⟩ => ⟨S1x128x3136, .f32⟩
  | .local _ .vmem, ⟨5, _⟩ => ⟨S1x128x3136, .f32⟩
  | _, _ => ⟨S32x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x58x58 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x3136 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S32x64x56x56_S32x64x58x58_000_000_110_110 : S32x64x56x56.Pads (![0, 0, 1, 1] : Fin 4 → Nat) ![0, 0, 1, 1] ![0, 0, 0, 0] S32x64x58x58
  h_S_ : 0 < S_.numel
  shapeCasts_S128x576_S128x64x9 : S128x576.ShapeCasts S128x64x9
  transposes_S128x64x9_S9x128x64_2_0_1 : S128x64x9.Transposes [2, 0, 1] S9x128x64
  shapeCasts_S9x128x64_S3x3x128x64 : S9x128x64.ShapeCasts S3x3x128x64
  transposes_S3x3x128x64_S3x128x3x64_0_2_1_3 : S3x3x128x64.Transposes [0, 2, 1, 3] S3x128x3x64
  shapeCasts_S3x128x3x64_S3x128x192 : S3x128x3x64.ShapeCasts S3x128x192
  shapeCasts_S128_S128x1 : S128.ShapeCasts S128x1
  inb_S1x64x58x58_S1x64x58x58_0_0_0_0 : ∀ a, (![0, 0, 0, 0] : Fin 4 → Nat) a + S1x64x58x58.size a ≤ S1x64x58x58.size a
  h_S1x64x58x58 : 0 < S1x64x58x58.numel
  shapeCasts_S1x64x58x58_S64x58x58 : S1x64x58x58.ShapeCasts S64x58x58
  slices_S64x58x58_o0_0_0_S64x56x56 : S64x58x58.Slices ![0, 0, 0] S64x56x56
  slices_S64x58x58_o0_0_1_S64x56x56 : S64x58x58.Slices ![0, 0, 1] S64x56x56
  slices_S64x58x58_o0_0_2_S64x56x56 : S64x58x58.Slices ![0, 0, 2] S64x56x56
  concatenates_S64x56x56_S64x56x56_S64x56x56_S192x56x56_d0 : Shape.Concatenates [S64x56x56, S64x56x56, S64x56x56] S192x56x56 0
  shapeCasts_S192x56x56_S192x3136 : S192x56x56.ShapeCasts S192x3136
  inb_S3x128x192_S1x128x192_0_0_0 : ∀ a, (![0, 0, 0] : Fin 3 → Nat) a + S1x128x192.size a ≤ S3x128x192.size a
  h_S1x128x192 : 0 < S1x128x192.numel
  shapeCasts_S1x128x192_S128x192 : S1x128x192.ShapeCasts S128x192
  slices_S64x58x58_o0_1_0_S64x56x56 : S64x58x58.Slices ![0, 1, 0] S64x56x56
  slices_S64x58x58_o0_1_1_S64x56x56 : S64x58x58.Slices ![0, 1, 1] S64x56x56
  slices_S64x58x58_o0_1_2_S64x56x56 : S64x58x58.Slices ![0, 1, 2] S64x56x56
  inb_S3x128x192_S1x128x192_1_0_0 : ∀ a, (![1, 0, 0] : Fin 3 → Nat) a + S1x128x192.size a ≤ S3x128x192.size a
  slices_S64x58x58_o0_2_0_S64x56x56 : S64x58x58.Slices ![0, 2, 0] S64x56x56
  slices_S64x58x58_o0_2_1_S64x56x56 : S64x58x58.Slices ![0, 2, 1] S64x56x56
  slices_S64x58x58_o0_2_2_S64x56x56 : S64x58x58.Slices ![0, 2, 2] S64x56x56
  inb_S3x128x192_S1x128x192_2_0_0 : ∀ a, (![2, 0, 0] : Fin 3 → Nat) a + S1x128x192.size a ≤ S3x128x192.size a
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x3136 : S128x1.Broadcasts S128x3136
  natLt_1_32 : 1 < 32
  inb_S1x128x3136_S1x128x3136_0_0_0 : ∀ a, (![0, 0, 0] : Fin 3 → Nat) a + S1x128x3136.size a ≤ S1x128x3136.size a
  h_S1x128x3136 : 0 < S1x128x3136.numel
  shapeCasts_S1x128x3136_S128x3136 : S1x128x3136.ShapeCasts S128x3136
  shapeCasts_S128x3136_S1x128x3136 : S128x3136.ShapeCasts S1x128x3136
  shapeCasts_S32x128x3136_S32x128x56x56 : S32x128x3136.ShapeCasts S32x128x56x56
  dot_S128x192_S192x3136_S128x3136_1_0_0_1_n_n_wf : DotDims.WF S128x192 S192x3136 S128x3136 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x58x58.size a ≤ S32x64x58x58.size a
  hwx0_0 : ∀ i : grid0.Coords, EltTy.bits .f32 = 32 ∨ (Rect.block (s := S32x64x58x58) S1x64x58x58.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128x192.size a ≤ S3x128x192.size a
  hwx0_1 : ∀ i : grid0.Coords, EltTy.bits .f32 = 32 ∨ (Rect.block (s := S3x128x192) S3x128x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x3136.size a ≤ S32x128x3136.size a
  hwx0_3 : ∀ i : grid0.Coords, EltTy.bits .f32 = 32 ∨ (Rect.block (s := S32x128x3136) S1x128x3136.size (cc0_transform_3 i) (hinb0_3 i)).WholeWords (EltTy.packing .f32)

variable [Facts₀]

def dot_S128x192_S192x3136_S128x3136_1_0_0_1_n_n : DotDims S128x192 S192x3136 S128x3136 where
  lhsContracting := [1]
  rhsContracting := [0]
  lhsNonContracting := [0]
  rhsNonContracting := [1]
  lhsBatch := []
  rhsBatch := []
  wf := dot_S128x192_S192x3136_S128x3136_1_0_0_1_n_n_wf

abbrev win0_0 : Pipeline.Window sig grid0 :=
  Pipeline.Window.ofSpec (Memref.whole main_v0) S1x64x58x58.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3x128x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x128x3136.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x64x56x56 : Shape := ⟨4, ![32, 64, 56, 56]⟩
abbrev S128x576 : Shape := ⟨2, ![128, 576]⟩
abbrev S128 : Shape := ⟨1, ![128]⟩
abbrev S_ : Shape := ⟨0, ![]⟩
abbrev S32x64x58x58 : Shape := ⟨4, ![32, 64, 58, 58]⟩
abbrev S32x64x1x56x56 : Shape := ⟨5, ![32, 64, 1, 56, 56]⟩
abbrev S32x64x9x56x56 : Shape := ⟨5, ![32, 64, 9, 56, 56]⟩
abbrev S32x576x3136 : Shape := ⟨3, ![32, 576, 3136]⟩
abbrev S32x3136x576 : Shape := ⟨3, ![32, 3136, 576]⟩
abbrev S128x32x3136 : Shape := ⟨3, ![128, 32, 3136]⟩
abbrev S32x128x3136 : Shape := ⟨3, ![32, 128, 3136]⟩
abbrev S1x128x1 : Shape := ⟨3, ![1, 128, 1]⟩
abbrev S32x128x56x56 : Shape := ⟨4, ![32, 128, 56, 56]⟩

abbrev nBuf : Space → Nat
  | .hbm => 41
  | .vmem => 0
  | .smem => 0
  | _ => 0

abbrev bufTy : (tb : Table) → Fin (tcTables nBuf tb) → BufTy
  | .hbm, ⟨0, _⟩ => ⟨S32x64x56x56, .f32⟩
  | .hbm, ⟨1, _⟩ => ⟨S128x576, .f32⟩
  | .hbm, ⟨2, _⟩ => ⟨S128, .f32⟩
  | .hbm, ⟨3, _⟩ => ⟨S_, .i32⟩
  | .hbm, ⟨4, _⟩ => ⟨S_, .f32⟩
  | .hbm, ⟨5, _⟩ => ⟨S32x64x58x58, .f32⟩
  | .hbm, ⟨6, _⟩ => ⟨S32x64x56x56, .f32⟩
  | .hbm, ⟨7, _⟩ => ⟨S32x64x56x56, .f32⟩
  | .hbm, ⟨8, _⟩ => ⟨S32x64x56x56, .f32⟩
  | .hbm, ⟨9, _⟩ => ⟨S32x64x56x56, .f32⟩
  | .hbm, ⟨10, _⟩ => ⟨S32x64x56x56, .f32⟩
  | .hbm, ⟨11, _⟩ => ⟨S32x64x56x56, .f32⟩
  | .hbm, ⟨12, _⟩ => ⟨S32x64x56x56, .f32⟩
  | .hbm, ⟨13, _⟩ => ⟨S32x64x56x56, .f32⟩
  | .hbm, ⟨14, _⟩ => ⟨S32x64x56x56, .f32⟩
  | .hbm, ⟨15, _⟩ => ⟨S32x64x1x56x56, .f32⟩
  | .hbm, ⟨16, _⟩ => ⟨S32x64x1x56x56, .f32⟩
  | .hbm, ⟨17, _⟩ => ⟨S32x64x1x56x56, .f32⟩
  | .hbm, ⟨18, _⟩ => ⟨S32x64x1x56x56, .f32⟩
  | .hbm, ⟨19, _⟩ => ⟨S32x64x1x56x56, .f32⟩
  | .hbm, ⟨20, _⟩ => ⟨S32x64x1x56x56, .f32⟩
  | .hbm, ⟨21, _⟩ => ⟨S32x64x1x56x56, .f32⟩
  | .hbm, ⟨22, _⟩ => ⟨S32x64x1x56x56, .f32⟩
  | .hbm, ⟨23, _⟩ => ⟨S32x64x1x56x56, .f32⟩
  | .hbm, ⟨24, _⟩ => ⟨S32x64x9x56x56, .f32⟩
  | .hbm, ⟨25, _⟩ => ⟨S32x576x3136, .f32⟩
  | .hbm, ⟨26, _⟩ => ⟨S32x3136x576, .f32⟩
  | .hbm, ⟨27, _⟩ => ⟨S128x32x3136, .f32⟩
  | .hbm, ⟨28, _⟩ => ⟨S32x128x3136, .f32⟩
  | .hbm, ⟨29, _⟩ => ⟨S1x128x1, .f32⟩
  | .hbm, ⟨30, _⟩ => ⟨S32x128x3136, .f32⟩
  | .hbm, ⟨31, _⟩ => ⟨S32x128x3136, .f32⟩
  | .hbm, ⟨32, _⟩ => ⟨S32x128x3136, .f32⟩
  | .hbm, ⟨33, _⟩ => ⟨S32x128x3136, .f32⟩
  | .hbm, ⟨34, _⟩ => ⟨S_, .f32⟩
  | .hbm, ⟨35, _⟩ => ⟨S32x128x3136, .f32⟩
  | .hbm, ⟨36, _⟩ => ⟨S32x128x3136, .i1⟩
  | .hbm, ⟨37, _⟩ => ⟨S32x128x3136, .f32⟩
  | .hbm, ⟨38, _⟩ => ⟨S32x128x3136, .f32⟩
  | .hbm, ⟨39, _⟩ => ⟨S32x128x3136, .f32⟩
  | .hbm, ⟨40, _⟩ => ⟨S32x128x56x56, .f32⟩
  | _, _ => ⟨S32x64x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩

abbrev nD : Nat := 1
abbrev τ : Topo := Topo.v7x

variable {F : FTy → Type} [FloatOps F]

class Facts₀ : Prop where
  pads_S32x64x56x56_S32x64x58x58_000_000_110_110 : S32x64x56x56.Pads (![0, 0, 1, 1] : Fin 4 → Nat) ![0, 0, 1, 1] ![0, 0, 0, 0] S32x64x58x58
  h_S_ : 0 < S_.numel
  slices_S32x64x58x58_S32x64x56x56_0_0_0_0 : S32x64x58x58.Slices ![0, 0, 0, 0] S32x64x56x56
  slices_S32x64x58x58_S32x64x56x56_0_0_0_1 : S32x64x58x58.Slices ![0, 0, 0, 1] S32x64x56x56
  slices_S32x64x58x58_S32x64x56x56_0_0_0_2 : S32x64x58x58.Slices ![0, 0, 0, 2] S32x64x56x56
  slices_S32x64x58x58_S32x64x56x56_0_0_1_0 : S32x64x58x58.Slices ![0, 0, 1, 0] S32x64x56x56
  slices_S32x64x58x58_S32x64x56x56_0_0_1_1 : S32x64x58x58.Slices ![0, 0, 1, 1] S32x64x56x56
  slices_S32x64x58x58_S32x64x56x56_0_0_1_2 : S32x64x58x58.Slices ![0, 0, 1, 2] S32x64x56x56
  slices_S32x64x58x58_S32x64x56x56_0_0_2_0 : S32x64x58x58.Slices ![0, 0, 2, 0] S32x64x56x56
  slices_S32x64x58x58_S32x64x56x56_0_0_2_1 : S32x64x58x58.Slices ![0, 0, 2, 1] S32x64x56x56
  slices_S32x64x58x58_S32x64x56x56_0_0_2_2 : S32x64x58x58.Slices ![0, 0, 2, 2] S32x64x56x56
  bcast_S32x64x56x56_S32x64x1x56x56_0_1_3_4 : S32x64x56x56.BroadcastsInDim S32x64x1x56x56 (![0, 1, 3, 4] : Fin 4 → Fin S32x64x1x56x56.rank)
  concatenates_S32x64x1x56x56_S32x64x1x56x56_S32x64x1x56x56_S32x64x1x56x56_S32x64x1x56x56_S32x64x1x56x56_S32x64x1x56x56_S32x64x1x56x56_S32x64x1x56x56_S32x64x9x56x56_d2 : Shape.Concatenates [S32x64x1x56x56, S32x64x1x56x56, S32x64x1x56x56, S32x64x1x56x56, S32x64x1x56x56, S32x64x1x56x56, S32x64x1x56x56, S32x64x1x56x56, S32x64x1x56x56] S32x64x9x56x56 2
  shapeCasts_S32x64x9x56x56_S32x576x3136 : S32x64x9x56x56.ShapeCasts S32x576x3136
  transposes_S32x576x3136_S32x3136x576_0_2_1 : S32x576x3136.Transposes [0, 2, 1] S32x3136x576
  transposes_S128x32x3136_S32x128x3136_1_0_2 : S128x32x3136.Transposes [1, 0, 2] S32x128x3136
  bcast_S128_S1x128x1_1 : S128.BroadcastsInDim S1x128x1 (![1] : Fin 1 → Fin S1x128x1.rank)
  bcast_S1x128x1_S32x128x3136_0_1_2 : S1x128x1.BroadcastsInDim S32x128x3136 (![0, 1, 2] : Fin 3 → Fin S32x128x3136.rank)
  bcast_S_S32x128x3136 : S_.BroadcastsInDim S32x128x3136 (![] : Fin 0 → Fin S32x128x3136.rank)
  shapeCasts_S32x128x3136_S32x128x56x56 : S32x128x3136.ShapeCasts S32x128x56x56
  dot_S128x576_S32x3136x576_S128x32x3136_1_2_0_01_n_n_wf : DotDims.WF S128x576 S32x3136x576 S128x32x3136 [1] [2] [0] [0, 1] [] []

variable [Facts₀]

def dot_S128x576_S32x3136x576_S128x32x3136_1_2_0_01_n_n : DotDims S128x576 S32x3136x576 S128x32x3136 where
  lhsContracting := [1]
  rhsContracting := [2]
  lhsNonContracting := [0]
  rhsNonContracting := [0, 1]
  lhsBatch := []
  rhsBatch := []
  wf := dot_S128x576_S32x3136x576_S128x32x3136_1_2_0_01_n_n_wf

class Facts : Prop extends Facts₀ where

variable [Facts]
-- ==== Proof.Spec.lean ====
/-
  The mathematics both programs compute: a 3×3 convolution with zero padding (stride one, 64 input and
  128 output channels, 56×56 images), a bias, and a hard threshold on the intensity sin² of the result.

  For image n, output channel o and pixel (h, w) the pre-activation is
      z = Σ_{d < 576} W[o, d] · xp[n, d / 9, h + (d % 9) / 3, w + d % 3] + b[o]
  where xp is x padded by one zero on each side of both image axes, and feature d = 9c + 3i + j stands for
  input channel c at vertical shift i and horizontal shift j. One program thresholds it as "cos (2z) < 0",
  the other as "sin² z > 1/2" written so that the forward value is s + ([s > 1/2] − s) with s = sin² z.
  The first program also splits the 576 features by the vertical shift into three sums of 192 products,
  feature 64j + c of group i being channel c at shifts (i, j).
-/
import Idealize.ShloMosaic.Lib.ValueIdx
import Idealize.ShloMosaic.PureOps.Ideal

noncomputable section

open scoped BigOperators

namespace Cert.LogicConv

open Idealize.ShloMosaic Idealize.ShloMosaic.ValueIdx

/-! ## Shapes -/

/-- The images. -/
abbrev SX : Shape := ⟨4, ![32, 64, 56, 56]⟩
/-- The images padded by one on each side of both image axes. -/
abbrev SXP : Shape := ⟨4, ![32, 64, 58, 58]⟩
/-- The weights, one row of 576 features per output channel. -/
abbrev SW : Shape := ⟨2, ![128, 576]⟩
/-- The bias. -/
abbrev SB : Shape := ⟨1, ![128]⟩
/-- The result, one 56×56 map per image and output channel. -/
abbrev SOut : Shape := ⟨4, ![32, 128, 56, 56]⟩
/-- The result with each map flattened row by row. -/
abbrev SOutFlat : Shape := ⟨3, ![32, 128, 3136]⟩
/-- One padded image. -/
abbrev SXB : Shape := ⟨4, ![1, 64, 58, 58]⟩
/-- The weights grouped by vertical shift: group, output channel, 64 · horizontal shift + channel. -/
abbrev SWG : Shape := ⟨3, ![3, 128, 192]⟩
/-- The bias as a column. -/
abbrev SB2 : Shape := ⟨2, ![128, 1]⟩
/-- One image's result, maps flattened. -/
abbrev SOB : Shape := ⟨3, ![1, 128, 3136]⟩

/-! ## Index arithmetic -/

/-- A pixel coordinate moved by a shift of 0, 1 or 2: a coordinate of the padded image. -/
def shift (h : Fin 56) (i : Fin 3) : Fin 58 := ⟨h.val + i.val, by omega⟩
/-- Feature d = 9c + 3i + j: its input channel c, -/
def chan (d : Fin 576) : Fin 64 := ⟨d.val / 9, by omega⟩
/-- its vertical shift i, -/
def dy (d : Fin 576) : Fin 3 := ⟨d.val % 9 / 3, by omega⟩
/-- and its horizontal shift j. -/
def dx (d : Fin 576) : Fin 3 := ⟨d.val % 3, by omega⟩
/-- Entry k = 64j + c of a group: its input channel c, -/
def chanK (k : Fin 192) : Fin 64 := ⟨k.val % 64, by omega⟩
/-- its horizontal shift j, -/
def dxK (k : Fin 192) : Fin 3 := ⟨k.val / 64, by omega⟩
/-- and the feature it is in group i: 9c + 3i + j. -/
def feat (i : Fin 3) (k : Fin 192) : Fin 576 := ⟨9 * (k.val % 64) + 3 * i.val + k.val / 64, by omega⟩
/-- Pixel (h, w) in a map flattened row by row. -/
def flat (h w : Fin 56) : Fin 3136 := ⟨h.val * 56 + w.val, by omega⟩

/-! ## The pre-activation -/

/-- The convolution plus bias at one output entry, over the padded images. -/
def preact (xp : SXP.Idx → EReal) (W : SW.Idx → EReal) (b : SB.Idx → EReal)
    (n : Fin 32) (o : Fin 128) (h w : Fin 56) : EReal :=
  (∑ d : Fin 576, W (ix2 o d) * xp (ix4 n (chan d) (shift h (dy d)) (shift w (dx d)))) + b (ix1 o)

/-- One vertical shift's share of the convolution, over one padded image and the grouped weights. -/
def rowSum (xb : SXB.Idx → EReal) (wg : SWG.Idx → EReal) (i : Fin 3) (o : Fin 128) (h w : Fin 56) : EReal :=
  ∑ k : Fin 192, wg (ix3 i o k) * xb (ix4 0 (chanK k) (shift h i) (shift w (dxK k)))

/-- The convolution plus bias at one output entry as three shares added in order, then the bias column. -/
def preactB (xb : SXB.Idx → EReal) (wg : SWG.Idx → EReal) (b2 : SB2.Idx → EReal)
    (o : Fin 128) (h w : Fin 56) : EReal :=
  ((rowSum xb wg 0 o h w + rowSum xb wg 1 o h w) + rowSum xb wg 2 o h w) + b2 (ix2 o 0)

/-! ## The two thresholds -/

/-- "cos (2z) < 0" as a number: the one-bit comparison widened to a word and read as a signed integer. -/
def stepK (z : EReal) : EReal :=
  ((((Ideal.cmp .olt (Ideal.cos (Ideal.ofBits .f32 0x40000000#32 * z)) (Ideal.ofBits .f32 0x00000000#32)).setWidth 32).toInt : ℝ) : EReal)

/-- "s + ([s > 1/2] − s)" for the intensity s = sin z · sin z, the comparison's bit read unsigned. -/
def stepR (z : EReal) : EReal :=
  Ideal.sin z * Ideal.sin z
    + ((((Ideal.cmp .ogt (Ideal.sin z * Ideal.sin z) (Ideal.ofBits .f32 0x3F000000#32)).toNat : ℝ) : EReal)
        - Ideal.sin z * Ideal.sin z)

/-! ## The result -/

/-- The images padded with zero (the padding value is the integer 0 converted). -/
def padded (x : SX.Idx → EReal) : SXP.Idx → EReal :=
  pad SXP ![0, 0, 1, 1] ![0, 0, 1, 1] ![0, 0, 0, 0] x
    (sitofp (F := Ideal) .f32 (constantI (⟨0, ![]⟩ : Shape) 32 0#32))

/-- The whole result as one function of the padded images, the weights and the bias. -/
def G (xp : SXP.Idx → EReal) (W : SW.Idx → EReal) (b : SB.Idx → EReal) : SOut.Idx → EReal :=
  fun i => stepR (preact xp W b (i 0) (i 1) (i 2) (i 3))

/-- Image n of the padded images, as an array with a leading axis of extent one. -/
def blockOf (xp : SXP.Idx → EReal) (n : Fin 32) : SXB.Idx → EReal :=
  fun y => xp (ix4 n (y 1) (y 2) (y 3))

/-- The whole result in the grouped form: per image, the three shares over the grouped weights, the bias
    column, and the threshold "cos (2z) < 0". -/
def GK (xp : SXP.Idx → EReal) (wg : SWG.Idx → EReal) (b2 : SB2.Idx → EReal) : SOut.Idx → EReal :=
  fun i => stepK (preactB (blockOf xp (i 0)) wg b2 (i 1) (i 2) (i 3))

end Cert.LogicConv

end
-- ==== Proof.KernelBody.lean ====
/-
  What the kernel body leaves in its output block, entry by entry: three matrix products over shifted views of
  one padded image, the bias column, and the threshold "cos (2z) < 0".
-/
import proofs.«400736_j21208548507913_3_alg».proof.Proof.Gen.KernelIdeal.Frame
import proofs.«400736_j21208548507913_3_alg».proof.Proof.Spec
import Idealize.ShloMosaic.Lib.Pipeline.Value
import Idealize.ShloMosaic.PureOps.Ideal.Laws

noncomputable section

open scoped BigOperators

namespace Cert.LogicConv

open Idealize.ShloMosaic Idealize.ShloMosaic.ValueIdx

namespace KernelBody

open Cert.KernelIdeal

/-! ## A matrix product at an entry -/

/-- The left operand's row coordinate is the output's row. -/
theorem lhs_dot_0 (i : S128x3136.Idx) (q : dot_S128x192_S192x3136_S128x3136_1_0_0_1_n_n.contr.Idx) :
    (dot_S128x192_S192x3136_S128x3136_1_0_0_1_n_n.lhsIdx i q 0).val = (i 0).val := by
  unfold DotDims.lhsIdx
  rw [dif_neg (show ¬(0 : Fin S128x192.rank) ∈ dot_S128x192_S192x3136_S128x3136_1_0_0_1_n_n.lhsBatch by decide), dif_pos (show (0 : Fin S128x192.rank) ∈ dot_S128x192_S192x3136_S128x3136_1_0_0_1_n_n.lhsNonContracting by decide)]
  rfl
/-- The left operand's column coordinate is the contraction coordinate. -/
theorem lhs_dot_1 (i : S128x3136.Idx) (q : dot_S128x192_S192x3136_S128x3136_1_0_0_1_n_n.contr.Idx) :
    (dot_S128x192_S192x3136_S128x3136_1_0_0_1_n_n.lhsIdx i q 1).val = (q ⟨0, by decide⟩).val :=
  dot_S128x192_S192x3136_S128x3136_1_0_0_1_n_n.lhsIdx_val_of_single rfl i q
/-- The right operand's row coordinate is the contraction coordinate. -/
theorem rhs_dot_0 (i : S128x3136.Idx) (q : dot_S128x192_S192x3136_S128x3136_1_0_0_1_n_n.contr.Idx) :
    (dot_S128x192_S192x3136_S128x3136_1_0_0_1_n_n.rhsIdx i q 0).val = (q ⟨0, by decide⟩).val :=
  dot_S128x192_S192x3136_S128x3136_1_0_0_1_n_n.rhsIdx_val_of_single rfl i q
/-- The right operand's column coordinate is the output's column. -/
theorem rhs_dot_1 (i : S128x3136.Idx) (q : dot_S128x192_S192x3136_S128x3136_1_0_0_1_n_n.contr.Idx) :
    (dot_S128x192_S192x3136_S128x3136_1_0_0_1_n_n.rhsIdx i q 1).val = (i 1).val := by
  unfold DotDims.rhsIdx
  rw [dif_neg (show ¬(1 : Fin S192x3136.rank) ∈ dot_S128x192_S192x3136_S128x3136_1_0_0_1_n_n.rhsBatch by decide), dif_pos (show (1 : Fin S192x3136.rank) ∈ dot_S128x192_S192x3136_S128x3136_1_0_0_1_n_n.rhsNonContracting by decide)]
  rfl

/-- A [128,192] × [192,3136] product accumulated into zero, at entry (o, l): the sum over the 192 inner
    coordinates of the row's and the column's entries multiplied. -/
theorem matmul_zero_apply (lhs : FVec Ideal S128x192 .f32) (rhs : FVec Ideal S192x3136 .f32) (o : Fin 128) (l : Fin 3136) :
    matmul dot_S128x192_S192x3136_S128x3136_1_0_0_1_n_n (some .fp32) lhs rhs (constant S128x3136 .f32 0x00000000#32) (ix2 o l)
      = ∑ k : Fin 192, lhs (ix2 o k) * rhs (ix2 k l) := by
  simp only [matmul]
  rw [Ideal.matmul_constant_zero_apply, ← Equiv.sum_comp (ValueIdx.contrEquiv1 dot_S128x192_S192x3136_S128x3136_1_0_0_1_n_n 192 rfl rfl).symm]
  refine Finset.sum_congr rfl fun k _ => ?_
  have hk := ValueIdx.contrEquiv1_symm_val dot_S128x192_S192x3136_S128x3136_1_0_0_1_n_n 192 rfl rfl k
  have el : dot_S128x192_S192x3136_S128x3136_1_0_0_1_n_n.lhsIdx (ix2 o l) ((ValueIdx.contrEquiv1 dot_S128x192_S192x3136_S128x3136_1_0_0_1_n_n 192 rfl rfl).symm k) = ix2 o k := funext fun a => Fin.ext (by
    match a with
    | ⟨0, _⟩ => exact lhs_dot_0 _ _
    | ⟨1, _⟩ => exact (lhs_dot_1 _ _).trans hk)
  have er : dot_S128x192_S192x3136_S128x3136_1_0_0_1_n_n.rhsIdx (ix2 o l) ((ValueIdx.contrEquiv1 dot_S128x192_S192x3136_S128x3136_1_0_0_1_n_n 192 rfl rfl).symm k) = ix2 k l := funext fun a => Fin.ext (by
    match a with
    | ⟨0, _⟩ => exact (rhs_dot_0 _ _).trans hk
    | ⟨1, _⟩ => exact rhs_dot_1 _ _)
  rw [el, er]

/-! ## The matrix of shifted views -/

/-- Three [64,56,56] pieces stacked along the first axis: row k of the stack is row k % 64 of piece k / 64. -/
theorem stack3_apply (p0 p1 p2 : FVec Ideal S64x56x56 .f32)
    (hc : Shape.Concatenates [S64x56x56, S64x56x56, S64x56x56] S192x56x56 0) (k : Fin 192) (h w : Fin 56) :
    concatenate S192x56x56 0 [⟨S64x56x56, p0⟩, ⟨S64x56x56, p1⟩, ⟨S64x56x56, p2⟩] hc (ix3 k h w)
      = if k.val / 64 = 0 then p0 (ix3 (chanK k) h w)
        else if k.val / 64 = 1 then p1 (ix3 (chanK k) h w) else p2 (ix3 (chanK k) h w) := by
  have hi : ∀ b : Fin S64x56x56.rank, b.cast (rfl : S64x56x56.rank = S192x56x56.rank) ≠ (0 : Fin S192x56x56.rank) →
      ((ix3 (chanK k) h w : S64x56x56.Idx) b).val = ((ix3 k h w : S192x56x56.Idx) (b.cast rfl)).val := fun b hb => by
    match b, hb with
    | ⟨0, _⟩, hb => exact absurd rfl hb
    | ⟨1, _⟩, _ => rfl
    | ⟨2, _⟩, _ => rfl
  have hk3 : k.val / 64 = 0 ∨ k.val / 64 = 1 ∨ k.val / 64 = 2 := by omega
  rcases hk3 with e | e | e
  · rw [if_pos e]
    exact concatenate_apply_piece (0 : Fin S192x56x56.rank) [⟨S64x56x56, p0⟩, ⟨S64x56x56, p1⟩, ⟨S64x56x56, p2⟩] hc (ix3 k h w)
      0 (by simp) S64x56x56 p0 rfl rfl 0 rfl (ix3 (chanK k) h w) hi (by show 0 + k.val % 64 = k.val; omega)
  · rw [if_neg (by omega), if_pos e]
    exact concatenate_apply_piece (0 : Fin S192x56x56.rank) [⟨S64x56x56, p0⟩, ⟨S64x56x56, p1⟩, ⟨S64x56x56, p2⟩] hc (ix3 k h w)
      1 (by simp) S64x56x56 p1 rfl rfl 64 rfl (ix3 (chanK k) h w) hi (by show 64 + k.val % 64 = k.val; omega)
  · rw [if_neg (by omega), if_neg (by omega)]
    exact concatenate_apply_piece (0 : Fin S192x56x56.rank) [⟨S64x56x56, p0⟩, ⟨S64x56x56, p1⟩, ⟨S64x56x56, p2⟩] hc (ix3 k h w)
      2 (by simp) S64x56x56 p2 rfl rfl 128 rfl (ix3 (chanK k) h w) hi (by show 128 + k.val % 64 = k.val; omega)

/-- A 56×56 view of a [64,58,58] array at offsets (0, i, j): entry (c, h, w) is the array's entry (c, h + i, w + j). -/
theorem view_apply (v1 : FVec Ideal S64x58x58 .f32) (i j : Fin 3)
    (hv : S64x58x58.Slices ![0, i.val, j.val] S64x56x56) (c : Fin 64) (h w : Fin 56) :
    extractStridedSlice S64x56x56 ![0, i.val, j.val] v1 hv (ix3 c h w) = v1 (ix3 c (shift h i) (shift w j)) :=
  extractStridedSlice_apply _ v1 hv (ix3 c h w) (ix3 c (shift h i) (shift w j)) (fun a => by
    match a with
    | ⟨0, _⟩ => show c.val = 0 + c.val; omega
    | ⟨1, _⟩ => show h.val + i.val = i.val + h.val; omega
    | ⟨2, _⟩ => show w.val + j.val = j.val + w.val; omega)

/-- For vertical shift i, the three horizontally shifted 56×56 views of the padded image stacked along the channel
    axis and flattened: at row k = 64·j + c and column (h, w) it reads the padded image at channel c, row h + i,
    column w + j. -/
theorem im2col_apply (v1 : FVec Ideal S64x58x58 .f32) (i : Fin 3)
    (h0 : S64x58x58.Slices ![0, i.val, 0] S64x56x56) (h1 : S64x58x58.Slices ![0, i.val, 1] S64x56x56)
    (h2 : S64x58x58.Slices ![0, i.val, 2] S64x56x56)
    (hc : Shape.Concatenates [S64x56x56, S64x56x56, S64x56x56] S192x56x56 0)
    (hs : S192x56x56.ShapeCasts S192x3136) (k : Fin 192) (h w : Fin 56) :
    shapeCast S192x3136 (concatenate S192x56x56 0
        [⟨S64x56x56, extractStridedSlice S64x56x56 ![0, i.val, 0] v1 h0⟩,
         ⟨S64x56x56, extractStridedSlice S64x56x56 ![0, i.val, 1] v1 h1⟩,
         ⟨S64x56x56, extractStridedSlice S64x56x56 ![0, i.val, 2] v1 h2⟩] hc) hs (ix2 k (flat h w))
      = v1 (ix3 (chanK k) (shift h i) (shift w (dxK k))) := by
  -- flattening: the row-major position of (k, h, w) in [192,56,56] is that of (k, 56 h + w) in [192,3136]
  refine (shapeCast_apply _ hs (ix2 k (flat h w)) (ix3 k h w) ?_).trans ?_
  · rw [Shape.rowMajor_val_three, Shape.rowMajor_val_two]
    show (k.val * 56 + h.val) * 56 + w.val = k.val * 3136 + (h.val * 56 + w.val)
    omega
  · -- the stack: row k lies in piece k / 64, the view at horizontal shift k / 64
    rw [stack3_apply]
    have hk3 : k.val / 64 = 0 ∨ k.val / 64 = 1 ∨ k.val / 64 = 2 := by omega
    rcases hk3 with e | e | e
    · rw [if_pos e, show dxK k = 0 from Fin.ext e]
      exact view_apply v1 i 0 h0 (chanK k) h w
    · rw [if_neg (by omega), if_pos e, show dxK k = 1 from Fin.ext e]
      exact view_apply v1 i 1 h1 (chanK k) h w
    · rw [if_neg (by omega), if_neg (by omega), show dxK k = 2 from Fin.ext e]
      exact view_apply v1 i 2 h2 (chanK k) h w

/-! ## The operands at an entry -/

/-- Group i of the grouped weights, loaded as a [1,128,192] block and viewed [128,192]: entry (o, k) is the weights'
    entry (i, o, k). -/
theorem wrow_apply (x1 : Vec Ideal S3x128x192 .f32) (i : Fin 3)
    (inb : ∀ a, (![i.val, 0, 0] : Fin 3 → Nat) a + S1x128x192.size a ≤ S3x128x192.size a)
    (hs : S1x128x192.ShapeCasts S128x192) (o : Fin 128) (k : Fin 192) :
    shapeCast S128x192 (View.ld x1 (Rect.unit (s := S3x128x192) ![i.val, 0, 0] S1x128x192.size inb)) hs (ix2 o k)
      = x1 (ix3 i o k) := by
  refine (shapeCast_apply _ hs (ix2 o k) (ix3 0 o k) ?_).trans ?_
  · rw [Shape.rowMajor_val_three, Shape.rowMajor_val_two]
    show (0 * 128 + o.val) * 192 + k.val = o.val * 192 + k.val
    omega
  · -- the block's entry (0, o, k) sits at offset (i, 0, 0) in the array
    show x1 _ = x1 _
    refine congrArg x1 (funext fun a => Fin.ext ?_)
    match a with
    | ⟨0, _⟩ => show i.val + 1 * 0 = i.val; omega
    | ⟨1, _⟩ => show 0 + 1 * o.val = o.val; omega
    | ⟨2, _⟩ => show 0 + 1 * k.val = k.val; omega

/-- The padded image, loaded whole as a [1,64,58,58] block and viewed [64,58,58]: entry (c, a, b) is the block's
    entry (0, c, a, b). -/
theorem image_apply (x0 : Vec Ideal S1x64x58x58 .f32)
    (inb : ∀ a, (![0, 0, 0, 0] : Fin 4 → Nat) a + S1x64x58x58.size a ≤ S1x64x58x58.size a)
    (hs : S1x64x58x58.ShapeCasts S64x58x58) (c : Fin 64) (a b : Fin 58) :
    shapeCast S64x58x58 (View.ld x0 (Rect.unit (s := S1x64x58x58) ![0, 0, 0, 0] S1x64x58x58.size inb)) hs (ix3 c a b)
      = x0 (ix4 0 c a b) := by
  rw [View.ld_unit_zero (S := S1x64x58x58) (funext fun a => by match a with | ⟨0, _⟩ => rfl | ⟨1, _⟩ => rfl | ⟨2, _⟩ => rfl | ⟨3, _⟩ => rfl) inb x0]
  refine shapeCast_apply _ hs (ix3 c a b) (ix4 0 c a b) ?_
  rw [Shape.rowMajor_val_four, Shape.rowMajor_val_three]
  show ((0 * 64 + c.val) * 58 + a.val) * 58 + b.val = (c.val * 58 + a.val) * 58 + b.val
  omega

/-- The bias column, loaded whole and spread along the pixels: entry (o, l) is the column's entry (o, 0). -/
theorem bias_apply (x2 : Vec Ideal S128x1 .f32)
    (inb : ∀ a, (![0, 0] : Fin 2 → Nat) a + S128x1.size a ≤ S128x1.size a)
    (hs : S128x1.ShapeCasts S128x1) (hb : S128x1.Broadcasts S128x3136) (o : Fin 128) (l : Fin 3136) :
    broadcastTo S128x3136 (shapeCast S128x1 (shapeCast S128x1 (View.ld x2 (Rect.unit (s := S128x1) ![0, 0] S128x1.size inb)) hs) hs) hb (ix2 o l)
      = x2 (ix2 o 0) := by
  refine (broadcastTo_apply _ hb (ix2 o l) (ix2 o 0) (fun a => by
    match a with
    | ⟨0, _⟩ => rfl
    | ⟨1, _⟩ => rfl)).trans ?_
  refine (shapeCast_apply _ hs (ix2 o 0) (ix2 o 0) rfl).trans ?_
  refine (shapeCast_apply _ hs (ix2 o 0) (ix2 o 0) rfl).trans ?_
  exact congrFun (View.ld_unit_zero (S := S128x1) (funext fun a => by match a with | ⟨0, _⟩ => rfl | ⟨1, _⟩ => rfl) inb x2) (ix2 o 0)

/-- The stored block at (0, o, l): the comparison of the cosine with the given word, its bit widened and read as a
    signed integer. -/
theorem stored_apply (v37 : FVec Ideal S128x3136 .f32) (c : Ideal .f32) (o : Fin 128) (l : Fin 3136) :
    Gen.k0_pay1 v37 c (ix3 0 o l)
      = ((((Ideal.cmp .olt (v37 (ix2 o l)) c).setWidth 32).toInt : ℝ) : EReal) := by
  unfold Gen.k0_pay1
  refine (shapeCast_apply _ _ (ix3 0 o l) (ix2 o l) ?_).trans ?_
  · rw [Shape.rowMajor_val_two, Shape.rowMajor_val_three]
    show o.val * 3136 + l.val = (0 * 128 + o.val) * 3136 + l.val
    omega
  · rfl

/-! ## One vertical shift's share, and the assembly -/

/-- The product of group i of the weights with the matrix of views at vertical shift i, at (o, (h, w)), is that
    shift's share of the convolution. -/
theorem share_apply (x0 : Vec Ideal S1x64x58x58 .f32) (x1 : Vec Ideal S3x128x192 .f32) (i : Fin 3)
    (inb0 : ∀ a, (![0, 0, 0, 0] : Fin 4 → Nat) a + S1x64x58x58.size a ≤ S1x64x58x58.size a)
    (hs0 : S1x64x58x58.ShapeCasts S64x58x58)
    (inbw : ∀ a, (![i.val, 0, 0] : Fin 3 → Nat) a + S1x128x192.size a ≤ S3x128x192.size a)
    (hsw : S1x128x192.ShapeCasts S128x192)
    (h0 : S64x58x58.Slices ![0, i.val, 0] S64x56x56) (h1 : S64x58x58.Slices ![0, i.val, 1] S64x56x56)
    (h2 : S64x58x58.Slices ![0, i.val, 2] S64x56x56)
    (hc : Shape.Concatenates [S64x56x56, S64x56x56, S64x56x56] S192x56x56 0)
    (hs : S192x56x56.ShapeCasts S192x3136) (o : Fin 128) (h w : Fin 56) :
    matmul (F := Ideal) (φ₁ := .f32) (φ₂ := .f32) dot_S128x192_S192x3136_S128x3136_1_0_0_1_n_n (some .fp32)
        (shapeCast S128x192 (View.ld x1 (Rect.unit (s := S3x128x192) ![i.val, 0, 0] S1x128x192.size inbw)) hsw)
        (shapeCast S192x3136 (concatenate S192x56x56 0
          [⟨S64x56x56, extractStridedSlice S64x56x56 ![0, i.val, 0]
              (shapeCast S64x58x58 (View.ld x0 (Rect.unit (s := S1x64x58x58) ![0, 0, 0, 0] S1x64x58x58.size inb0)) hs0) h0⟩,
           ⟨S64x56x56, extractStridedSlice S64x56x56 ![0, i.val, 1]
              (shapeCast S64x58x58 (View.ld x0 (Rect.unit (s := S1x64x58x58) ![0, 0, 0, 0] S1x64x58x58.size inb0)) hs0) h1⟩,
           ⟨S64x56x56, extractStridedSlice S64x56x56 ![0, i.val, 2]
              (shapeCast S64x58x58 (View.ld x0 (Rect.unit (s := S1x64x58x58) ![0, 0, 0, 0] S1x64x58x58.size inb0)) hs0) h2⟩] hc) hs)
        (constant (F := Ideal) S128x3136 .f32 0x00000000#32) (ix2 o (flat h w))
      = rowSum x0 x1 i o h w := by
  rw [matmul_zero_apply]
  unfold rowSum
  refine Finset.sum_congr rfl fun k _ => ?_
  rw [wrow_apply, im2col_apply, image_apply]

/-- Twice the sum of four vectors added to the zero vector in order, under the cosine, at an entry whose four
    summands are known. -/
theorem tail_apply (m0 m1 m2 b : FVec Ideal S128x3136 .f32) (j : S128x3136.Idx) (r0 r1 r2 rb : EReal)
    (e0 : m0 j = r0) (e1 : m1 j = r1) (e2 : m2 j = r2) (eb : b j = rb) :
    cos (mulf (broadcast S128x3136 (Scalar.ofBits (F := Ideal) .f32 0x40000000#32))
        (addf (addf (addf (addf (broadcast S128x3136 (Scalar.ofBits (F := Ideal) .f32 0x00000000#32)) m0) m1) m2) b)) j
      = Ideal.cos (Ideal.ofBits .f32 0x40000000#32 * (((r0 + r1) + r2) + rb)) := by
  show Ideal.cos (Ideal.ofBits .f32 0x40000000#32 * ((((Ideal.ofBits .f32 0x00000000#32 + m0 j) + m1 j) + m2 j) + b j)) = _
  rw [Ideal.ofBits_zero_f32, zero_add, e0, e1, e2, eb]

/-- The cosine the body thresholds, at (o, (h, w)): of twice the pre-activation. -/
theorem cos_apply (x0 : Vec Ideal S1x64x58x58 .f32) (x1 : Vec Ideal S3x128x192 .f32) (x2 : Vec Ideal S128x1 .f32)
    (o : Fin 128) (h w : Fin 56) :
    Gen.k0_pay2 (View.ld x0 Gen.r0_0) (View.ld x1 Gen.r0_1) (View.ld x1 Gen.r0_2) (View.ld x1 Gen.r0_3) (View.ld x2 Gen.r0_4)
        (ix2 o (flat h w))
      = Ideal.cos (Ideal.ofBits .f32 0x40000000#32 * preactB x0 x1 x2 o h w) := by
  unfold Gen.k0_pay2
  refine tail_apply _ _ _ _ _ _ _ _ _ ?_ ?_ ?_ ?_
  · exact share_apply x0 x1 0 _ _ _ _ _ _ _ _ _ o h w
  · exact share_apply x0 x1 1 _ _ _ _ _ _ _ _ _ o h w
  · exact share_apply x0 x1 2 _ _ _ _ _ _ _ _ _ o h w
  · exact bias_apply x2 _ _ _ o (flat h w)

end KernelBody

/-- The output block at output channel o and pixel (h, w), from the padded image, the grouped weights and the bias column. -/
theorem body_value (x0 : Vec Ideal Cert.KernelIdeal.S1x64x58x58 .f32) (x1 : Vec Ideal Cert.KernelIdeal.S3x128x192 .f32)
    (x2 : Vec Ideal Cert.KernelIdeal.S128x1 .f32) (o : Fin 128) (h w : Fin 56) :
    Cert.KernelIdeal.Gen.out0_3 (F := Ideal) x0 x1 x2 (ix3 0 o (flat h w)) = stepK (preactB x0 x1 x2 o h w) := by
  -- the one store covers the block, so the block is its payload; the loads read the blocks at their offsets
  unfold Cert.KernelIdeal.Gen.out0_3
  rw [View.canon_unit_zero (S := Cert.KernelIdeal.S1x128x3136) (funext fun a => by match a with | ⟨0, _⟩ => rfl | ⟨1, _⟩ => rfl | ⟨2, _⟩ => rfl)]
  -- the comparison's bit at (o, (h, w)), then the cosine it compares: both sides are the same threshold of it
  rw [KernelBody.stored_apply, KernelBody.cos_apply]
  rfl

end Cert.LogicConv

end
-- ==== Proof.KernelArray.lean ====
/-
  The kernel's result array. Grid point t handles image t: it reads the whole padded image t, all grouped weights and
  the whole bias column, and writes the 128 flattened maps of image t. The 32 blocks tile the flattened result, which
  the last host operation reshapes to 56×56 maps.
-/
import proofs.«400736_j21208548507913_3_alg».proof.Proof.Gen.KernelIdeal.Frame
import proofs.«400736_j21208548507913_3_alg».proof.Proof.Spec
import proofs.«400736_j21208548507913_3_alg».proof.Proof.KernelBody
import Idealize.ShloMosaic.Lib.Pipeline.Value
import Idealize.ShloMosaic.Lib.StableHlo.Run
import Idealize.ShloMosaic.Lib.Tactic

set_option maxRecDepth 16384

noncomputable section

namespace Cert.LogicConv

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The index maps over the grid: point t reads block t of the padded images and writes block t of the flattened
    result; the weights' and the bias's only block is block zero; there are 32 points. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ t.val < 32 :=
  (by decide +kernel : ∀ t : Fin grid0.N, _)

/-- The image a grid point handles. -/
def img (t : Fin cfg0.N) : Fin 32 := ⟨t.val, (idx_facts t).2.2.2.2.2.2.2.2.2.2.2.2⟩

/-- The first window's block at point t is padded image t. -/
theorem iblk0_apply (c : Dev nD) (t : Fin cfg0.N) (y : SXB.Idx) :
    (iblk m c 0 t : SXB.Idx → EReal) y = blockOf (V m c main_v0) (img t) y := by
  obtain ⟨e0, e1, e2, e3, -⟩ := idx_facts t
  unfold iblk blockOf
  rw [View.read_apply]
  show V m c main_v0 _ = V m c main_v0 _
  congr 1
  funext a
  apply Fin.ext
  match a with
  | ⟨0, _⟩ => show win0_0.index t (0 : Fin 4) * 1 + 1 * (y 0).val = t.val; have : (y 0).val < 1 := (y 0).isLt; omega
  | ⟨1, _⟩ => show win0_0.index t (1 : Fin 4) * 64 + 1 * (y 1).val = (y 1).val; omega
  | ⟨2, _⟩ => show win0_0.index t (2 : Fin 4) * 58 + 1 * (y 2).val = (y 2).val; omega
  | ⟨3, _⟩ => show win0_0.index t (3 : Fin 4) * 58 + 1 * (y 3).val = (y 3).val; omega

/-- The second window's only block is the whole grouped weights. -/
theorem iblk1_apply (c : Dev nD) (t : Fin cfg0.N) (y : SWG.Idx) :
    (iblk m c 1 t : SWG.Idx → EReal) y = (V m c main_v5 : SWG.Idx → EReal) y := by
  obtain ⟨-, -, -, -, e0, e1, e2, -⟩ := idx_facts t
  unfold iblk
  rw [View.read_apply]
  show V m c main_v5 _ = V m c main_v5 _
  congr 1
  funext a
  apply Fin.ext
  match a with
  | ⟨0, _⟩ => show win0_1.index t (0 : Fin 3) * 3 + 1 * (y 0).val = (y 0).val; omega
  | ⟨1, _⟩ => show win0_1.index t (1 : Fin 3) * 128 + 1 * (y 1).val = (y 1).val; omega
  | ⟨2, _⟩ => show win0_1.index t (2 : Fin 3) * 192 + 1 * (y 2).val = (y 2).val; omega

/-- The third window's only block is the whole bias column. -/
theorem iblk2_apply (c : Dev nD) (t : Fin cfg0.N) (y : SB2.Idx) :
    (iblk m c 2 t : SB2.Idx → EReal) y = (V m c main_v6 : SB2.Idx → EReal) y := by
  obtain ⟨-, -, -, -, -, -, -, e0, e1, -⟩ := idx_facts t
  unfold iblk
  rw [View.read_apply]
  show V m c main_v6 _ = V m c main_v6 _
  congr 1
  funext a
  apply Fin.ext
  match a with
  | ⟨0, _⟩ => show win0_2.index t (0 : Fin 2) * 128 + 1 * (y 0).val = (y 0).val; omega
  | ⟨1, _⟩ => show win0_2.index t (1 : Fin 2) * 1 + 1 * (y 1).val = (y 1).val; omega

/-- The flattened result as one function of the padded images, the grouped weights and the bias column: entry
    (n, o, l) is the thresholded pre-activation of image n, channel o at pixel (l / 56, l % 56). -/
def GKflat (xp : SXP.Idx → EReal) (wg : SWG.Idx → EReal) (b2 : SB2.Idx → EReal) : SOutFlat.Idx → EReal :=
  fun i => stepK (preactB (blockOf xp (i 0)) wg b2 (i 1)
    ⟨(i 2).val / 56, by have : (i 2).val < 3136 := (i 2).isLt; omega⟩ ⟨(i 2).val % 56, by omega⟩)

/-- The pre-activation depends on its three arrays only through their entries. -/
theorem preactB_congr (xb xb' : SXB.Idx → EReal) (wg wg' : SWG.Idx → EReal) (b2 b2' : SB2.Idx → EReal)
    (hx : ∀ y, xb y = xb' y) (hw : ∀ y, wg y = wg' y) (hb : ∀ y, b2 y = b2' y) {o o' : Fin 128} {h h' w w' : Fin 56}
    (ho : o = o') (hh : h = h') (hw' : w = w') :
    preactB xb wg b2 o h w = preactB xb' wg' b2' o' h' w' := by
  rw [show xb = xb' from funext hx, show wg = wg' from funext hw, show b2 = b2' from funext hb, ho, hh, hw']

/-- What point t writes back is block t of the flattened result. -/
theorem flushed_eq (c : Dev nD) (t : Fin cfg0.N) :
    (dats m 0 c).flushed 3 t
      = ((cfg0.win 3).blk t).view.read (Elt Ideal) (GKflat (V m c main_v0) (V m c main_v5) (V m c main_v6)) := by
  obtain ⟨-, -, -, -, -, -, -, -, -, e0, e1, e2, hN⟩ := idx_facts t
  show (cfg0.win 3).cut (grid0.coords t) ((dats m 0 c).after 3 t) = _
  rw [after0_3]
  funext j
  rw [View.read_apply]
  revert j
  show ∀ j : S1x128x3136.Idx, out0_3 (iblk m c 0 t) (iblk m c 1 t) (iblk m c 2 t) j
      = GKflat (V m c main_v0) (V m c main_v5) (V m c main_v6) (((cfg0.win 3).blk t).view.emb j)
  intro j
  -- where an entry of block t sits in the flattened result: image t, the same channel and pixel
  have hemb : ((cfg0.win 3).blk t).view.emb j = ix3 (img t) (j 1) (j 2) := by
    funext a
    apply Fin.ext
    match a with
    | ⟨0, _⟩ => show win0_3.index t (0 : Fin 3) * 1 + 1 * (j 0).val = t.val; have : (j 0).val < 1 := (j 0).isLt; omega
    | ⟨1, _⟩ => show win0_3.index t (1 : Fin 3) * 128 + 1 * (j 1).val = (j 1).val; omega
    | ⟨2, _⟩ => show win0_3.index t (2 : Fin 3) * 3136 + 1 * (j 2).val = (j 2).val; omega
  rw [hemb]
  obtain ⟨z, o, l, rfl⟩ : ∃ (z : Fin 1) (o : Fin 128) (l : Fin 3136), j = ix3 z o l := ⟨j 0, j 1, j 2, eq_ix3 j⟩
  obtain rfl : z = 0 := Subsingleton.elim _ _
  obtain ⟨h, w, rfl⟩ : ∃ (h w : Fin 56), l = flat h w :=
    ⟨⟨l.val / 56, by have := l.isLt; omega⟩, ⟨l.val % 56, by omega⟩, Fin.ext (by show l.val = l.val / 56 * 56 + l.val % 56; omega)⟩
  refine (body_value (iblk m c 0 t) (iblk m c 1 t) (iblk m c 2 t) o h w).trans ?_
  exact congrArg stepK (preactB_congr _ _ _ _ _ _ (iblk0_apply m c t) (iblk1_apply m c t) (iblk2_apply m c t) rfl
    (Fin.ext (by show h.val = (h.val * 56 + w.val) / 56; have := w.isLt; omega))
    (Fin.ext (by show w.val = (h.val * 56 + w.val) % 56; have := w.isLt; omega)))

/-- An entry of the flattened result is in point t's block iff each coordinate is in the block's range on its axis. -/
theorem mem_blk (t : Fin cfg0.N) (i : S32x128x3136.Idx) :
    i ∈ ((cfg0.win 3).blk t).view.set ↔ ∀ a : Fin 3, win0_3.index t a * S1x128x3136.size a ≤ (i a).val
      ∧ (i a).val < win0_3.index t a * S1x128x3136.size a + S1x128x3136.size a := by
  show i ∈ ((View.whole main_v7).slice (win0_3.rect t)).set ↔ _
  rw [View.set_slice_whole, Rect.mem_set_unit]
  exact Iff.rfl

/-- Every entry of the flattened result is in the block of the point that handles its image. -/
theorem cover (i : S32x128x3136.Idx) :
    ∃ t : Fin cfg0.N, (cfg0.win 3).flush t = true ∧ i ∈ ((cfg0.win 3).blk t).view.set := by
  have hN : cfg0.N = 32 := N_0
  have hi0 : (i 0).val < 32 := (i 0).isLt
  have hi1 : (i 1).val < 128 := (i 1).isLt
  have hi2 : (i 2).val < 3136 := (i 2).isLt
  refine ⟨⟨(i 0).val, by rw [hN]; exact hi0⟩, flush0_3 _, ?_⟩
  obtain ⟨-, -, -, -, -, -, -, -, -, e0, e1, e2, -⟩ := idx_facts ⟨(i 0).val, by rw [hN]; exact hi0⟩
  rw [mem_blk]
  intro a
  match a with
  | ⟨0, _⟩ => show win0_3.index _ (0 : Fin 3) * 1 ≤ (i 0).val ∧ (i 0).val < win0_3.index _ (0 : Fin 3) * 1 + 1; rw [e0]; show (i 0).val * 1 ≤ (i 0).val ∧ (i 0).val < (i 0).val * 1 + 1; omega
  | ⟨1, _⟩ => show win0_3.index _ (1 : Fin 3) * 128 ≤ (i 1).val ∧ (i 1).val < win0_3.index _ (1 : Fin 3) * 128 + 128; rw [e1]; omega
  | ⟨2, _⟩ => show win0_3.index _ (2 : Fin 3) * 3136 ≤ (i 2).val ∧ (i 2).val < win0_3.index _ (2 : Fin 3) * 3136 + 3136; rw [e2]; omega

/-- The flattened result array after the run. -/
theorem final (c : Dev nD) :
    (dats m 0 c).arrAt 3 cfg0.N = GKflat (V m c main_v0) (V m c main_v5) (V m c main_v6) :=
  (dats m 0 c).arrAt_eq_of_cover 3 (GKflat (V m c main_v0) (V m c main_v5) (V m c main_v6))
    (fun t _ => flushed_eq m c t) cover

/-- Reshaping the flattened result to 56×56 maps: entry (n, o, h, w) is flattened entry (n, o, 56h + w), whose pixel
    is (h, w) again. -/
theorem reshape_flat (xp : SXP.Idx → EReal) (wg : SWG.Idx → EReal) (b2 : SB2.Idx → EReal) (hc : SOutFlat.ShapeCasts SOut) :
    shapeCast SOut (GKflat xp wg b2) hc = GK xp wg b2 := by
  funext i
  obtain ⟨n, o, h, w, rfl⟩ : ∃ (n : Fin 32) (o : Fin 128) (h w : Fin 56), i = ix4 n o h w := ⟨i 0, i 1, i 2, i 3, eq_ix4 i⟩
  refine (shapeCast_apply (GKflat xp wg b2) hc (ix4 n o h w) (ix3 n o (flat h w)) ?_).trans ?_
  · rewrite [Shape.rowMajor_val_three, Shape.rowMajor_val_four]
    show (n.val * 128 + o.val) * 3136 + (h.val * 56 + w.val) = ((n.val * 128 + o.val) * 56 + h.val) * 56 + w.val
    omega
  · show stepK (preactB (blockOf xp n) wg b2 o ⟨(h.val * 56 + w.val) / 56, _⟩ ⟨(h.val * 56 + w.val) % 56, _⟩)
        = stepK (preactB (blockOf xp n) wg b2 o h w)
    have hh : (⟨(h.val * 56 + w.val) / 56, by have := h.isLt; have := w.isLt; omega⟩ : Fin 56) = h :=
      Fin.ext (by show (h.val * 56 + w.val) / 56 = h.val; have := w.isLt; omega)
    have hw : (⟨(h.val * 56 + w.val) % 56, by omega⟩ : Fin 56) = w :=
      Fin.ext (by show (h.val * 56 + w.val) % 56 = w.val; have := w.isLt; omega)
    rw [hh, hw]

/-- The reshape after the launch turns the flattened result array into the result. -/
theorem tail_eq (c : Dev nD) :
    Pipeline.afterTail₀ cfgs (dats m) 0 (V0 m) [hostOps1] c main_v8
      = GK (V m c main_v0) (V m c main_v5) (V m c main_v6) := by
  have hw := (Pipeline.withArrays_arr spec0 launch0.win.arr_inj c (V0 m c) (fun w => (dats m 0 c).arrAt w cfg0.N) 3).trans (final m c)
  unfold Pipeline.afterTail₀
  show StableHlo.after hostOps1 _ (Proc.devRef .tc main_v8) = _
  after_results
  exact (congrArg (fun y : S32x128x3136.Idx → EReal => shapeCast S32x128x56x56 y (by decide)) hw).trans
    (reshape_flat _ _ _ _)

/-- The kernel's run, read: every weakly fair execution ends with the result array at the grouped form of the result
    over the arrays the windows read, and the arguments as they were. -/
theorem kernel_run : θ_run defs (onTc (τ := τ) (main (F := Ideal))) ⟨m, fun _ => 0, ρ⟩ fun r => ∀ c : Dev nD,
      r.2.mem ((c.tc : Thread nD τ).loc main_v8) = GK (V m c main_v0) (V m c main_v5) (V m c main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.LogicConv

end
-- ==== Proof.KernelHost.lean ====
/-
  What the kernel's windows read: the host operations before the launch pad the images, regroup the weights by
  vertical shift, and turn the bias into a column.
-/
import proofs.«400736_j21208548507913_3_alg».proof.Proof.Gen.KernelIdeal.Frame
import proofs.«400736_j21208548507913_3_alg».proof.Proof.Spec
import Idealize.ShloMosaic.Lib.StableHlo.Run
import Idealize.ShloMosaic.Lib.Pipeline.Value

noncomputable section

namespace Cert.LogicConv

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ)

/-- The first window's array is the padded images. -/
theorem V_padded (c : Dev nD) :
    (V m c main_v0 : S32x64x58x58.Idx → EReal) = padded (m ((c : Thread nD τ).loc main_arg0)) := by
  -- the buffer after the nine operations is the pad of the images by the converted integer zero
  dsimp only [Gen.V, Gen.V0]
  simp only [Gen.hostOps0, Gen.hostOps0_1, Gen.hostOps0_2, List.flatten_cons, List.flatten_nil, List.append_nil,
    List.cons_append, List.nil_append]
  after_results
  rfl

/-- The regrouped weights as the five layout operations composed over the weights as launched. -/
theorem V_grouped_term (c : Dev nD) :
    (V m c main_v5 : S3x128x192.Idx → EReal)
      = shapeCast S3x128x192
          (transpose S3x128x3x64 [0, 2, 1, 3]
            (shapeCast S3x3x128x64
              (transpose S9x128x64 [2, 0, 1]
                (shapeCast S128x64x9 (m ((c : Thread nD τ).loc main_arg1) : S128x576.Idx → EReal)
                  shapeCasts_S128x576_S128x64x9)
                transposes_S128x64x9_S9x128x64_2_0_1)
              shapeCasts_S9x128x64_S3x3x128x64)
            transposes_S3x3x128x64_S3x128x3x64_0_2_1_3)
          shapeCasts_S3x128x3x64_S3x128x192 := by
  dsimp only [Gen.V, Gen.V0]
  simp only [Gen.hostOps0, Gen.hostOps0_1, Gen.hostOps0_2, List.flatten_cons, List.flatten_nil, List.append_nil,
    List.cons_append, List.nil_append]
  after_results
  rfl

/-- The second window's array is the weights regrouped: group i, output channel o, entry k is feature `feat i k` of row o. -/
theorem V_grouped (c : Dev nD) (i : Fin 3) (o : Fin 128) (k : Fin 192) :
    (V m c main_v5 : S3x128x192.Idx → EReal) (ix3 i o k)
      = (m ((c : Thread nD τ).loc main_arg1) : S128x576.Idx → EReal) (ix2 o (feat i k)) := by
  rw [V_grouped_term]
  generalize (m ((c : Thread nD τ).loc main_arg1) : S128x576.Idx → EReal) = W
  -- k = 64 j + ch: horizontal shift j, input channel ch; g = 3 i + j is the shift pair's number
  have hk := k.isLt
  have hi := i.isLt
  have ho := o.isLt
  let j : Fin 3 := ⟨k.val / 64, by omega⟩
  let ch : Fin 64 := ⟨k.val % 64, by omega⟩
  let g : Fin 9 := ⟨3 * i.val + k.val / 64, by omega⟩
  -- [3,128,192] at (i, o, k) is [3,128,3,64] at (i, o, j, ch): the same row-major position
  generalize hT4 : transpose S3x128x3x64 [0, 2, 1, 3] _ transposes_S3x3x128x64_S3x128x3x64_0_2_1_3 = T4
  refine (shapeCast_apply T4 shapeCasts_S3x128x3x64_S3x128x192 (ix3 i o k) (ix4 i o j ch) (by
    rw [Shape.rowMajor_val_four, Shape.rowMajor_val_three]
    show ((i.val * 128 + o.val) * 3 + k.val / 64) * 64 + k.val % 64 = (i.val * 128 + o.val) * 192 + k.val
    omega)).trans ?_
  subst hT4
  -- the transpose exchanges the output channel and the horizontal shift
  generalize hT3 : shapeCast S3x3x128x64 _ shapeCasts_S9x128x64_S3x3x128x64 = T3
  refine (transpose_apply [0, 2, 1, 3] T3 transposes_S3x3x128x64_S3x128x3x64_0_2_1_3 (ix4 i o j ch) (ix4 i j o ch)
    (fun b => match b with
      | ⟨0, _⟩ => rfl
      | ⟨1, _⟩ => rfl
      | ⟨2, _⟩ => rfl
      | ⟨3, _⟩ => rfl)).trans ?_
  subst hT3
  -- [3,3,128,64] at (i, j, o, ch) is [9,128,64] at (3 i + j, o, ch)
  generalize hT2 : transpose S9x128x64 [2, 0, 1] _ transposes_S128x64x9_S9x128x64_2_0_1 = T2
  refine (shapeCast_apply T2 shapeCasts_S9x128x64_S3x3x128x64 (ix4 i j o ch) (ix3 g o ch) (by
    rw [Shape.rowMajor_val_three, Shape.rowMajor_val_four]
    show ((3 * i.val + k.val / 64) * 128 + o.val) * 64 + k.val % 64
      = ((i.val * 3 + k.val / 64) * 128 + o.val) * 64 + k.val % 64
    omega)).trans ?_
  subst hT2
  -- the transpose brings the shift pair's axis from last to first
  generalize hT1 : shapeCast S128x64x9 W shapeCasts_S128x576_S128x64x9 = T1
  refine (transpose_apply [2, 0, 1] T1 transposes_S128x64x9_S9x128x64_2_0_1 (ix3 g o ch) (ix3 o ch g)
    (fun b => match b with
      | ⟨0, _⟩ => rfl
      | ⟨1, _⟩ => rfl
      | ⟨2, _⟩ => rfl)).trans ?_
  subst hT1
  -- [128,64,9] at (o, ch, g) is [128,576] at (o, 9 ch + g), and 9 ch + g = 9 (k % 64) + 3 i + k / 64
  exact shapeCast_apply W shapeCasts_S128x576_S128x64x9 (ix3 o ch g) (ix2 o (feat i k)) (by
    show (S128x576.rowMajor (ix2 o (feat i k))).val = (S128x64x9.rowMajor (ix3 o ch g)).val
    rw [Shape.rowMajor_val_two, Shape.rowMajor_val_three]
    show o.val * 576 + (9 * (k.val % 64) + 3 * i.val + k.val / 64)
      = (o.val * 64 + k.val % 64) * 9 + (3 * i.val + k.val / 64)
    omega)

/-- The third window's array is the bias as a column. -/
theorem V_column (c : Dev nD) (o : Fin 128) :
    (V m c main_v6 : S128x1.Idx → EReal) (ix2 o 0)
      = (m ((c : Thread nD τ).loc main_arg2) : S128.Idx → EReal) (ix1 o) := by
  have e : (V m c main_v6 : S128x1.Idx → EReal)
      = shapeCast S128x1 (m ((c : Thread nD τ).loc main_arg2) : S128.Idx → EReal) shapeCasts_S128_S128x1 := by
    dsimp only [Gen.V, Gen.V0]
    simp only [Gen.hostOps0, Gen.hostOps0_1, Gen.hostOps0_2, List.flatten_cons, List.flatten_nil, List.append_nil,
      List.cons_append, List.nil_append]
    after_results
    rfl
  rw [e]
  -- [128,1] at (o, 0) and [128] at o have the same row-major position o
  exact shapeCast_apply _ shapeCasts_S128_S128x1 (ix2 o 0) (ix1 o) (by
    rw [Shape.rowMajor_val_one, Shape.rowMajor_val_two]
    show o.val = o.val * 1 + 0
    omega)

end Cert.LogicConv

end
-- ==== Proof.Algebra.lean ====
/-
  The algebra that joins the two forms of the result: the 576 features regrouped by vertical shift, and the
  pre-activation real when every entry is.
-/
import proofs.«400736_j21208548507913_3_alg».proof.Proof.Spec

noncomputable section

open scoped BigOperators

namespace Cert.LogicConv

open Idealize.ShloMosaic Idealize.ShloMosaic.ValueIdx

/-! ## The features of a group -/

/-- Entry k = 64j + c of group i is feature 9c + 3i + j, whose input channel is c = k % 64, -/
private theorem chan_feat (i : Fin 3) (k : Fin 192) : chan (feat i k) = chanK k := by
  apply Fin.ext
  simp only [chan, feat, chanK]
  omega

/-- whose vertical shift is i: 9c + 3i + j leaves 3i + j < 9 on division by 9, and j < 3, -/
private theorem dy_feat (i : Fin 3) (k : Fin 192) : dy (feat i k) = i := by
  apply Fin.ext
  simp only [dy, feat]
  have hj : k.val / 64 < 3 := by omega
  have h9 : (9 * (k.val % 64) + 3 * i.val + k.val / 64) % 9 = 3 * i.val + k.val / 64 := by omega
  omega

/-- and whose horizontal shift is j = k / 64. -/
private theorem dx_feat (i : Fin 3) (k : Fin 192) : dx (feat i k) = dxK k := by
  apply Fin.ext
  simp only [dx, feat, dxK]
  omega

/-- (i, k) ↦ feature 9 (k % 64) + 3i + k / 64 is a bijection of the three groups of 192 entries with the 576
    features: feature d = 9c + 3i + j comes from group i, entry 64j + c. -/
private def featEquiv : Fin 3 × Fin 192 ≃ Fin 576 where
  toFun p := feat p.1 p.2
  invFun d := (dy d, ⟨64 * (dx d).val + (chan d).val, by have := (dx d).isLt; have := (chan d).isLt; omega⟩)
  left_inv := by
    rintro ⟨i, k⟩
    refine Prod.ext (dy_feat i k) (Fin.ext ?_)
    -- 64 (k / 64) + k % 64 = k
    simp only [chan_feat, dx_feat, chanK, dxK]
    omega
  right_inv := by
    intro d
    apply Fin.ext
    simp only [feat, dy, dx, chan]
    -- entry 64 (d % 3) + d / 9 has channel d / 9 < 64 and horizontal shift d % 3
    have h1 : d.val / 9 < 64 := by omega
    have h2 : (64 * (d.val % 3) + d.val / 9) % 64 = d.val / 9 := by omega
    have h3 : (64 * (d.val % 3) + d.val / 9) / 64 = d.val % 3 := by omega
    -- d = 9 (d / 9) + 3 (d % 9 / 3) + d % 3
    omega

/-- The three shares over the grouped weights and one padded image add up to the sum over all 576 features. -/
theorem preactB_eq_preact (xp : SXP.Idx → EReal) (W : SW.Idx → EReal) (b : SB.Idx → EReal)
    (xb : SXB.Idx → EReal) (wg : SWG.Idx → EReal) (b2 : SB2.Idx → EReal) (n : Fin 32) (o : Fin 128) (h w : Fin 56)
    (hx : ∀ (c : Fin 64) (r s : Fin 58), xb (ix4 0 c r s) = xp (ix4 n c r s))
    (hw : ∀ (i : Fin 3) (k : Fin 192), wg (ix3 i o k) = W (ix2 o (feat i k)))
    (hb : b2 (ix2 o 0) = b (ix1 o)) :
    preactB xb wg b2 o h w = preact xp W b n o h w := by
  unfold preactB preact rowSum
  -- each share, entry by entry, is the sum over the features of its group
  have key : ∀ i : Fin 3,
      (∑ k : Fin 192, wg (ix3 i o k) * xb (ix4 0 (chanK k) (shift h i) (shift w (dxK k))))
        = ∑ k : Fin 192, W (ix2 o (feat i k))
            * xp (ix4 n (chan (feat i k)) (shift h (dy (feat i k))) (shift w (dx (feat i k)))) := by
    intro i
    refine Finset.sum_congr rfl fun k _ => ?_
    rw [hw, hx, chan_feat, dy_feat, dx_feat]
  rw [key 0, key 1, key 2, hb]
  congr 1
  -- the sum over all features, carried along the bijection and split by group
  refine Eq.trans ?_ (Equiv.sum_comp featEquiv
    (fun d : Fin 576 => W (ix2 o d) * xp (ix4 n (chan d) (shift h (dy d)) (shift w (dx d)))))
  rw [Fintype.sum_prod_type, Fin.sum_univ_three]
  rfl

/-! ## Real entries -/

/-- A finite sum of reals, each read as an extended real, is the real sum read as an extended real. -/
private theorem sum_coe_real {ι : Type} (s : Finset ι) (g : ι → ℝ) :
    (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

/-- A pre-activation over real entries is real. -/
theorem preact_real (xp : SXP.Idx → EReal) (W : SW.Idx → EReal) (b : SB.Idx → EReal)
    (hx : ∀ i, ∃ r : ℝ, xp i = (r : EReal)) (hW : ∀ i, ∃ r : ℝ, W i = (r : EReal)) (hb : ∀ i, ∃ r : ℝ, b i = (r : EReal))
    (n : Fin 32) (o : Fin 128) (h w : Fin 56) : ∃ r : ℝ, preact xp W b n o h w = (r : EReal) := by
  -- real witnesses for every entry
  choose xr hxr using hx
  choose wr hwr using hW
  choose br hbr using hb
  refine ⟨(∑ d : Fin 576, wr (ix2 o d) * xr (ix4 n (chan d) (shift h (dy d)) (shift w (dx d)))) + br (ix1 o), ?_⟩
  unfold preact
  -- products and sums of reals stay real
  rw [EReal.coe_add, ← sum_coe_real, hbr]
  congr 1
  refine Finset.sum_congr rfl fun d _ => ?_
  rw [hwr, hxr, EReal.coe_mul]

/-- Real images padded with zero are real. -/
theorem padded_real (x : SX.Idx → EReal) (hx : ∀ i, ∃ r : ℝ, x i = (r : EReal)) :
    ∀ i, ∃ r : ℝ, padded x i = (r : EReal) := by
  intro i
  unfold padded pad
  dsimp only
  split
  · -- inside the image: an entry of x
    exact hx _
  · -- in the border: the integer 0 converted
    exact ⟨((0#32 : BitVec 32).toInt : ℝ), rfl⟩

end Cert.LogicConv

end
-- ==== Proof.Threshold.lean ====
/-
  The two thresholds agree at a real pre-activation: cos 2z = 1 − 2 sin² z, so cos 2z < 0 exactly when sin² z > 1/2,
  and for a real intensity s the forward value s + ([s > 1/2] − s) is the bit [s > 1/2] itself.
-/
import proofs.«400736_j21208548507913_3_alg».proof.Proof.Spec
import Idealize.ShloMosaic.PureOps.Ideal.Laws
import Mathlib.Analysis.SpecialFunctions.Trigonometric.Basic

noncomputable section

namespace Cert.LogicConv

open Idealize.ShloMosaic

/-! ## The constants -/

/-- The pattern 0x40000000 (exponent field 128, fraction 0) denotes the real 2. -/
theorem ofBits_two : Ideal.ofBits .f32 0x40000000#32 = ((2 : ℝ) : EReal) := by
  simp [Ideal.ofBits, Ideal.ieee, -EReal.coe_mul]; norm_num

/-- The pattern 0x3F000000 (exponent field 126, fraction 0) denotes the real 1/2. -/
theorem ofBits_half : Ideal.ofBits .f32 0x3F000000#32 = ((1 / 2 : ℝ) : EReal) := by
  simp [Ideal.ofBits, Ideal.ieee, -EReal.coe_mul]; norm_num

/-! ## The comparisons at reals -/

/-- "less than" between two reals seen as extended reals is the bit of the real inequality. -/
theorem cmp_olt_coe (a b : ℝ) :
    Ideal.cmp .olt (a : EReal) (b : EReal) = BitVec.ofBool (decide (a < b)) := by
  simp only [Ideal.cmp, EReal.coe_lt_coe_iff]

/-- "greater than" between two reals seen as extended reals is the bit of the reversed real inequality. -/
theorem cmp_ogt_coe (a b : ℝ) :
    Ideal.cmp .ogt (a : EReal) (b : EReal) = BitVec.ofBool (decide (b < a)) := by
  simp only [Ideal.cmp, EReal.coe_lt_coe_iff]

/-- A bit widened to a word with zeros and read as a signed integer is 1 for a set bit and 0 for a clear one. -/
theorem toInt_setWidth_ofBool (p : Bool) :
    ((BitVec.ofBool p).setWidth 32).toInt = if p then 1 else 0 := by
  cases p <;> decide

/-- A bit read as an unsigned number is 1 for a set bit and 0 for a clear one. -/
theorem toNat_ofBool (p : Bool) : (BitVec.ofBool p).toNat = if p then 1 else 0 := by
  cases p <;> rfl

/-! ## The trigonometric identity -/

/-- cos 2r = 1 − 2 sin² r, so cos 2r < 0 exactly when sin² r > 1/2. -/
theorem cos_two_mul_neg_iff (r : ℝ) : Real.cos (2 * r) < 0 ↔ 1 / 2 < Real.sin r * Real.sin r := by
  have h := Real.cos_two_mul r
  have h2 := Real.sin_sq_add_cos_sq r
  constructor <;> intro h' <;> nlinarith

/-! ## The two thresholds at a real -/

/-- The first threshold at a real: the bit of "cos 2r < 0" as a number. -/
theorem stepK_coe (r : ℝ) :
    stepK (r : EReal) = (((if Real.cos (2 * r) < 0 then 1 else 0 : ℝ)) : EReal) := by
  unfold stepK
  rw [ofBits_two, Ideal.ofBits_zero_f32, ← EReal.coe_mul, Ideal.cos_coe, ← EReal.coe_zero, cmp_olt_coe,
    toInt_setWidth_ofBool]
  by_cases h : Real.cos (2 * r) < 0
  · simp [h]
  · simp [h]

/-- The second threshold at a real: s + ([s > 1/2] − s) = [s > 1/2] for the real intensity s = sin² r. -/
theorem stepR_coe (r : ℝ) :
    stepR (r : EReal) = (((if 1 / 2 < Real.sin r * Real.sin r then 1 else 0 : ℝ)) : EReal) := by
  unfold stepR
  rw [ofBits_half, Ideal.sin_coe, ← EReal.coe_mul, cmp_ogt_coe, toNat_ofBool, ← EReal.coe_sub, ← EReal.coe_add]
  congr 1
  by_cases h : 1 / 2 < Real.sin r * Real.sin r
  · simp [h]
  · simp [h]

/-- At a real pre-activation the two thresholds agree. -/
theorem step_eq (r : ℝ) : stepK (r : EReal) = stepR (r : EReal) := by
  rw [stepK_coe, stepR_coe]
  by_cases h : Real.cos (2 * r) < 0
  · rw [if_pos h, if_pos ((cos_two_mul_neg_iff r).1 h)]
  · rw [if_neg h, if_neg (fun h' => h ((cos_two_mul_neg_iff r).2 h'))]

end Cert.LogicConv

end
-- ==== Proof.Finite.lean ====
/-
  The precondition read: "every entry of every input is below +∞ in absolute value" says that every entry is a real number.
-/
import proofs.«400736_j21208548507913_3_alg».proof.Pre_finite_inputs
import proofs.«400736_j21208548507913_3_alg».proof.Proof.Gen.Pre_finite_inputs
import Idealize.ShloMosaic.PureOps.Ideal
import Idealize.ShloMosaic.Lib.ValueIdx
import Idealize.ShloMosaic.Lib.ReduceAll

noncomputable section

namespace Cert.LogicConv

open Idealize.ShloMosaic Idealize.ShloMosaic.ValueIdx

/-- The word 0x7F800000 denotes +∞: exponent all ones, fraction zero, sign clear. -/
theorem ofBits_inf : Ideal.ofBits .f32 0x7F800000#32 = (⊤ : EReal) := by
  simp [Ideal.ofBits, Ideal.ieee]

/-- One entry: if |a| = max a (−a) compares strictly below +∞ then a is neither infinity, so it is a real number. -/
theorem real_of_abs_lt_inf (a : EReal)
    (h : Ideal.cmp .olt (max a (-a)) (Ideal.ofBits .f32 0x7F800000#32) = 1#1) : ∃ r : ℝ, a = (r : EReal) := by
  rw [ofBits_inf] at h
  unfold Ideal.cmp at h
  -- the comparison's bit is 1 exactly when the strict inequality holds
  have hlt : max a (-a) < ⊤ := by
    by_contra hn
    simp [hn] at h
  induction a using EReal.rec with
  | bot => simp at hlt   -- |−∞| = +∞ is not below +∞
  | coe r => exact ⟨r, rfl⟩
  | top => simp at hlt   -- |+∞| = +∞ is not below +∞

/-- Under the precondition every entry of the images, the weights and the bias is a real number. -/
theorem real_of_pre [Cert.Pre_finite_inputs.Facts]
    (x : FVec Ideal Cert.Pre_finite_inputs.S32x64x56x56 .f32) (W : FVec Ideal Cert.Pre_finite_inputs.S128x576 .f32)
    (b : FVec Ideal Cert.Pre_finite_inputs.S128 .f32)
    (h : Cert.Pre_finite_inputs.fn (F := Ideal) x W b = fun _ => 1#1) :
    (∀ i, ∃ r : ℝ, x i = (r : EReal)) ∧ (∀ i, ∃ r : ℝ, W i = (r : EReal)) ∧ (∀ i, ∃ r : ℝ, b i = (r : EReal)) := by
  -- the result of each reduction over all axes has exactly one index
  haveI : Subsingleton Cert.Pre_finite_inputs.S_.Idx := ⟨fun a b => funext fun d => d.elim0⟩
  -- the precondition's one bit, read at its one index, is the conjunction of the three reductions
  have h0 := congrFun h ValueIdx.ix0
  dsimp only [Cert.Pre_finite_inputs.fn] at h0
  -- a conjunction of bits is 1 exactly when both bits are
  obtain ⟨h12, h3⟩ := IntOp.andi_eq_one.1 h0
  obtain ⟨h1, h2⟩ := IntOp.andi_eq_one.1 h12
  -- a reduction by "and" over all axes that came out 1 had a 1 at every entry; at entry i that 1 is the bit of
  -- |x i| < +∞ (the absolute value, the comparison and the broadcast constant all read entrywise)
  refine ⟨fun i => ?_, fun i => ?_, fun i => ?_⟩
  · exact real_of_abs_lt_inf (x i) (Host.reduce_andi_all _ _ _ _ _ h1 i)
  · exact real_of_abs_lt_inf (W i) (Host.reduce_andi_all _ _ _ _ _ h2 i)
  · exact real_of_abs_lt_inf (b i) (Host.reduce_andi_all _ _ _ _ _ h3 i)

end Cert.LogicConv

end
-- ==== Proof.RefValue.lean ====
/-
  The reference's result, read one operation at a time, is the specification: nine shifted views of the padded
  images stacked as features, one contraction against the weights, the bias, and the threshold on sin².
-/
import proofs.«400736_j21208548507913_3_alg».proof.Proof.Gen.ReferenceIdeal.Read
import proofs.«400736_j21208548507913_3_alg».proof.Proof.Spec

noncomputable section

open scoped BigOperators

namespace Cert.LogicConv

open Idealize.ShloMosaic Idealize.ShloMosaic.ValueIdx

/-- The reference pads the images as the specification does. -/
theorem ref_padded (x : SX.Idx → EReal) : Cert.ReferenceIdeal.Read.val_main_v0 (F := Ideal) x = padded x := by
  -- the same pad of the same operands; the two side conditions are propositions
  rfl

namespace RefValue

open Cert.ReferenceIdeal.Read

/-- Off the joined axis (axis 2) a piece's index has the coordinates of the index of the whole. -/
theorem off_axis (n : Fin 32) (c : Fin 64) (kk : Fin 9) (h w : Fin 56)
    (hr : Cert.ReferenceIdeal.S32x64x1x56x56.rank = Cert.ReferenceIdeal.S32x64x9x56x56.rank) :
    ∀ b : Fin Cert.ReferenceIdeal.S32x64x1x56x56.rank, b.cast hr ≠ (2 : Fin Cert.ReferenceIdeal.S32x64x9x56x56.rank) →
      ((ix5 n c (0 : Fin 1) h w : Cert.ReferenceIdeal.S32x64x1x56x56.Idx) b).val
        = ((ix5 n c kk h w : Cert.ReferenceIdeal.S32x64x9x56x56.Idx) (b.cast hr)).val := by
  intro b
  match b with
  | ⟨0, _⟩ => exact fun _ => rfl
  | ⟨1, _⟩ => exact fun _ => rfl
  | ⟨2, _⟩ => exact fun hb => absurd rfl hb
  | ⟨3, _⟩ => exact fun _ => rfl
  | ⟨4, _⟩ => exact fun _ => rfl

/-! ## The nine views

View k of the stack (k = 3 i + j) is the slice of the padded images at offsets (i, j) on the two image axes, given an
axis of extent one: at (n, c, k, h, w) the stack holds the padded images at (n, c, h + i, w + j). -/

theorem piece0 (x : SX.Idx → EReal) (n : Fin 32) (c : Fin 64) (h w : Fin 56) :
    val_main_v19 (F := Ideal) x (ix5 n c (⟨0, by omega⟩ : Fin 9) h w)
      = val_main_v0 (F := Ideal) x (ix4 n c (shift h ⟨0, by omega⟩) (shift w ⟨0, by omega⟩)) := by
  have e : val_main_v19 (F := Ideal) x (ix5 n c (⟨0, by omega⟩ : Fin 9) h w)
      = val_main_v10 (F := Ideal) x (ix5 n c (0 : Fin 1) h w) := by
    unfold val_main_v19
    exact concatenate_apply_piece (a := 2) (j := ix5 n c (⟨0, by omega⟩ : Fin 9) h w) (k := 0)
      (hk := by show 0 < 9; omega) (s₁ := Cert.ReferenceIdeal.S32x64x1x56x56) (x₁ := val_main_v10 (F := Ideal) x)
      (hxk := rfl) (hr := rfl) (pre := 0) (hpre := rfl) (i := ix5 n c (0 : Fin 1) h w)
      (hi := off_axis n c _ h w rfl) (ha := rfl) ..
  rw [e, val_main_v10_apply, val_main_v1_apply]
  congr 1
  funext a
  match a with
  | ⟨0, _⟩ => rfl
  | ⟨1, _⟩ => rfl
  | ⟨2, _⟩ => exact Fin.ext (by show h.val = h.val + 0; omega)
  | ⟨3, _⟩ => exact Fin.ext (by show w.val = w.val + 0; omega)

theorem piece1 (x : SX.Idx → EReal) (n : Fin 32) (c : Fin 64) (h w : Fin 56) :
    val_main_v19 (F := Ideal) x (ix5 n c (⟨1, by omega⟩ : Fin 9) h w)
      = val_main_v0 (F := Ideal) x (ix4 n c (shift h ⟨0, by omega⟩) (shift w ⟨1, by omega⟩)) := by
  have e : val_main_v19 (F := Ideal) x (ix5 n c (⟨1, by omega⟩ : Fin 9) h w)
      = val_main_v11 (F := Ideal) x (ix5 n c (0 : Fin 1) h w) := by
    unfold val_main_v19
    exact concatenate_apply_piece (a := 2) (j := ix5 n c (⟨1, by omega⟩ : Fin 9) h w) (k := 1)
      (hk := by show 1 < 9; omega) (s₁ := Cert.ReferenceIdeal.S32x64x1x56x56) (x₁ := val_main_v11 (F := Ideal) x)
      (hxk := rfl) (hr := rfl) (pre := 1) (hpre := rfl) (i := ix5 n c (0 : Fin 1) h w)
      (hi := off_axis n c _ h w rfl) (ha := rfl) ..
  rw [e, val_main_v11_apply, val_main_v2_apply]
  congr 1
  funext a
  match a with
  | ⟨0, _⟩ => rfl
  | ⟨1, _⟩ => rfl
  | ⟨2, _⟩ => exact Fin.ext (by show h.val = h.val + 0; omega)
  | ⟨3, _⟩ => exact Fin.ext (by show 1 + w.val = w.val + 1; omega)

theorem piece2 (x : SX.Idx → EReal) (n : Fin 32) (c : Fin 64) (h w : Fin 56) :
    val_main_v19 (F := Ideal) x (ix5 n c (⟨2, by omega⟩ : Fin 9) h w)
      = val_main_v0 (F := Ideal) x (ix4 n c (shift h ⟨0, by omega⟩) (shift w ⟨2, by omega⟩)) := by
  have e : val_main_v19 (F := Ideal) x (ix5 n c (⟨2, by omega⟩ : Fin 9) h w)
      = val_main_v12 (F := Ideal) x (ix5 n c (0 : Fin 1) h w) := by
    unfold val_main_v19
    exact concatenate_apply_piece (a := 2) (j := ix5 n c (⟨2, by omega⟩ : Fin 9) h w) (k := 2)
      (hk := by show 2 < 9; omega) (s₁ := Cert.ReferenceIdeal.S32x64x1x56x56) (x₁ := val_main_v12 (F := Ideal) x)
      (hxk := rfl) (hr := rfl) (pre := 2) (hpre := rfl) (i := ix5 n c (0 : Fin 1) h w)
      (hi := off_axis n c _ h w rfl) (ha := rfl) ..
  rw [e, val_main_v12_apply, val_main_v3_apply]
  congr 1
  funext a
  match a with
  | ⟨0, _⟩ => rfl
  | ⟨1, _⟩ => rfl
  | ⟨2, _⟩ => exact Fin.ext (by show h.val = h.val + 0; omega)
  | ⟨3, _⟩ => exact Fin.ext (by show 2 + w.val = w.val + 2; omega)

theorem piece3 (x : SX.Idx → EReal) (n : Fin 32) (c : Fin 64) (h w : Fin 56) :
    val_main_v19 (F := Ideal) x (ix5 n c (⟨3, by omega⟩ : Fin 9) h w)
      = val_main_v0 (F := Ideal) x (ix4 n c (shift h ⟨1, by omega⟩) (shift w ⟨0, by omega⟩)) := by
  have e : val_main_v19 (F := Ideal) x (ix5 n c (⟨3, by omega⟩ : Fin 9) h w)
      = val_main_v13 (F := Ideal) x (ix5 n c (0 : Fin 1) h w) := by
    unfold val_main_v19
    exact concatenate_apply_piece (a := 2) (j := ix5 n c (⟨3, by omega⟩ : Fin 9) h w) (k := 3)
      (hk := by show 3 < 9; omega) (s₁ := Cert.ReferenceIdeal.S32x64x1x56x56) (x₁ := val_main_v13 (F := Ideal) x)
      (hxk := rfl) (hr := rfl) (pre := 3) (hpre := rfl) (i := ix5 n c (0 : Fin 1) h w)
      (hi := off_axis n c _ h w rfl) (ha := rfl) ..
  rw [e, val_main_v13_apply, val_main_v4_apply]
  congr 1
  funext a
  match a with
  | ⟨0, _⟩ => rfl
  | ⟨1, _⟩ => rfl
  | ⟨2, _⟩ => exact Fin.ext (by show 1 + h.val = h.val + 1; omega)
  | ⟨3, _⟩ => exact Fin.ext (by show w.val = w.val + 0; omega)

theorem piece4 (x : SX.Idx → EReal) (n : Fin 32) (c : Fin 64) (h w : Fin 56) :
    val_main_v19 (F := Ideal) x (ix5 n c (⟨4, by omega⟩ : Fin 9) h w)
      = val_main_v0 (F := Ideal) x (ix4 n c (shift h ⟨1, by omega⟩) (shift w ⟨1, by omega⟩)) := by
  have e : val_main_v19 (F := Ideal) x (ix5 n c (⟨4, by omega⟩ : Fin 9) h w)
      = val_main_v14 (F := Ideal) x (ix5 n c (0 : Fin 1) h w) := by
    unfold val_main_v19
    exact concatenate_apply_piece (a := 2) (j := ix5 n c (⟨4, by omega⟩ : Fin 9) h w) (k := 4)
      (hk := by show 4 < 9; omega) (s₁ := Cert.ReferenceIdeal.S32x64x1x56x56) (x₁ := val_main_v14 (F := Ideal) x)
      (hxk := rfl) (hr := rfl) (pre := 4) (hpre := rfl) (i := ix5 n c (0 : Fin 1) h w)
      (hi := off_axis n c _ h w rfl) (ha := rfl) ..
  rw [e, val_main_v14_apply, val_main_v5_apply]
  congr 1
  funext a
  match a with
  | ⟨0, _⟩ => rfl
  | ⟨1, _⟩ => rfl
  | ⟨2, _⟩ => exact Fin.ext (by show 1 + h.val = h.val + 1; omega)
  | ⟨3, _⟩ => exact Fin.ext (by show 1 + w.val = w.val + 1; omega)

theorem piece5 (x : SX.Idx → EReal) (n : Fin 32) (c : Fin 64) (h w : Fin 56) :
    val_main_v19 (F := Ideal) x (ix5 n c (⟨5, by omega⟩ : Fin 9) h w)
      = val_main_v0 (F := Ideal) x (ix4 n c (shift h ⟨1, by omega⟩) (shift w ⟨2, by omega⟩)) := by
  have e : val_main_v19 (F := Ideal) x (ix5 n c (⟨5, by omega⟩ : Fin 9) h w)
      = val_main_v15 (F := Ideal) x (ix5 n c (0 : Fin 1) h w) := by
    unfold val_main_v19
    exact concatenate_apply_piece (a := 2) (j := ix5 n c (⟨5, by omega⟩ : Fin 9) h w) (k := 5)
      (hk := by show 5 < 9; omega) (s₁ := Cert.ReferenceIdeal.S32x64x1x56x56) (x₁ := val_main_v15 (F := Ideal) x)
      (hxk := rfl) (hr := rfl) (pre := 5) (hpre := rfl) (i := ix5 n c (0 : Fin 1) h w)
      (hi := off_axis n c _ h w rfl) (ha := rfl) ..
  rw [e, val_main_v15_apply, val_main_v6_apply]
  congr 1
  funext a
  match a with
  | ⟨0, _⟩ => rfl
  | ⟨1, _⟩ => rfl
  | ⟨2, _⟩ => exact Fin.ext (by show 1 + h.val = h.val + 1; omega)
  | ⟨3, _⟩ => exact Fin.ext (by show 2 + w.val = w.val + 2; omega)

theorem piece6 (x : SX.Idx → EReal) (n : Fin 32) (c : Fin 64) (h w : Fin 56) :
    val_main_v19 (F := Ideal) x (ix5 n c (⟨6, by omega⟩ : Fin 9) h w)
      = val_main_v0 (F := Ideal) x (ix4 n c (shift h ⟨2, by omega⟩) (shift w ⟨0, by omega⟩)) := by
  have e : val_main_v19 (F := Ideal) x (ix5 n c (⟨6, by omega⟩ : Fin 9) h w)
      = val_main_v16 (F := Ideal) x (ix5 n c (0 : Fin 1) h w) := by
    unfold val_main_v19
    exact concatenate_apply_piece (a := 2) (j := ix5 n c (⟨6, by omega⟩ : Fin 9) h w) (k := 6)
      (hk := by show 6 < 9; omega) (s₁ := Cert.ReferenceIdeal.S32x64x1x56x56) (x₁ := val_main_v16 (F := Ideal) x)
      (hxk := rfl) (hr := rfl) (pre := 6) (hpre := rfl) (i := ix5 n c (0 : Fin 1) h w)
      (hi := off_axis n c _ h w rfl) (ha := rfl) ..
  rw [e, val_main_v16_apply, val_main_v7_apply]
  congr 1
  funext a
  match a with
  | ⟨0, _⟩ => rfl
  | ⟨1, _⟩ => rfl
  | ⟨2, _⟩ => exact Fin.ext (by show 2 + h.val = h.val + 2; omega)
  | ⟨3, _⟩ => exact Fin.ext (by show w.val = w.val + 0; omega)

theorem piece7 (x : SX.Idx → EReal) (n : Fin 32) (c : Fin 64) (h w : Fin 56) :
    val_main_v19 (F := Ideal) x (ix5 n c (⟨7, by omega⟩ : Fin 9) h w)
      = val_main_v0 (F := Ideal) x (ix4 n c (shift h ⟨2, by omega⟩) (shift w ⟨1, by omega⟩)) := by
  have e : val_main_v19 (F := Ideal) x (ix5 n c (⟨7, by omega⟩ : Fin 9) h w)
      = val_main_v17 (F := Ideal) x (ix5 n c (0 : Fin 1) h w) := by
    unfold val_main_v19
    exact concatenate_apply_piece (a := 2) (j := ix5 n c (⟨7, by omega⟩ : Fin 9) h w) (k := 7)
      (hk := by show 7 < 9; omega) (s₁ := Cert.ReferenceIdeal.S32x64x1x56x56) (x₁ := val_main_v17 (F := Ideal) x)
      (hxk := rfl) (hr := rfl) (pre := 7) (hpre := rfl) (i := ix5 n c (0 : Fin 1) h w)
      (hi := off_axis n c _ h w rfl) (ha := rfl) ..
  rw [e, val_main_v17_apply, val_main_v8_apply]
  congr 1
  funext a
  match a with
  | ⟨0, _⟩ => rfl
  | ⟨1, _⟩ => rfl
  | ⟨2, _⟩ => exact Fin.ext (by show 2 + h.val = h.val + 2; omega)
  | ⟨3, _⟩ => exact Fin.ext (by show 1 + w.val = w.val + 1; omega)

theorem piece8 (x : SX.Idx → EReal) (n : Fin 32) (c : Fin 64) (h w : Fin 56) :
    val_main_v19 (F := Ideal) x (ix5 n c (⟨8, by omega⟩ : Fin 9) h w)
      = val_main_v0 (F := Ideal) x (ix4 n c (shift h ⟨2, by omega⟩) (shift w ⟨2, by omega⟩)) := by
  have e : val_main_v19 (F := Ideal) x (ix5 n c (⟨8, by omega⟩ : Fin 9) h w)
      = val_main_v18 (F := Ideal) x (ix5 n c (0 : Fin 1) h w) := by
    unfold val_main_v19
    exact concatenate_apply_piece (a := 2) (j := ix5 n c (⟨8, by omega⟩ : Fin 9) h w) (k := 8)
      (hk := by show 8 < 9; omega) (s₁ := Cert.ReferenceIdeal.S32x64x1x56x56) (x₁ := val_main_v18 (F := Ideal) x)
      (hxk := rfl) (hr := rfl) (pre := 8) (hpre := rfl) (i := ix5 n c (0 : Fin 1) h w)
      (hi := off_axis n c _ h w rfl) (ha := rfl) ..
  rw [e, val_main_v18_apply, val_main_v9_apply]
  congr 1
  funext a
  match a with
  | ⟨0, _⟩ => rfl
  | ⟨1, _⟩ => rfl
  | ⟨2, _⟩ => exact Fin.ext (by show 2 + h.val = h.val + 2; omega)
  | ⟨3, _⟩ => exact Fin.ext (by show 2 + w.val = w.val + 2; omega)

/-- View k = 3 i + j of the stack at (n, c, k, h, w) is the padded images at (n, c, h + i, w + j), for the shifts
    i = k / 3 and j = k % 3 given as numbers below 3. -/
theorem piece_value (x : SX.Idx → EReal) (n : Fin 32) (c : Fin 64) (kk : Fin 9) (i j : Fin 3)
    (hi : i.val = kk.val / 3) (hj : j.val = kk.val % 3) (h w : Fin 56) :
    val_main_v19 (F := Ideal) x (ix5 n c kk h w) = val_main_v0 (F := Ideal) x (ix4 n c (shift h i) (shift w j)) := by
  obtain ⟨kv, hkv⟩ := kk
  obtain ⟨iv, hiv⟩ := i
  obtain ⟨jv, hjv⟩ := j
  have hi' : iv = kv / 3 := hi
  have hj' : jv = kv % 3 := hj
  interval_cases kv
  · obtain rfl : iv = 0 := hi'
    obtain rfl : jv = 0 := hj'
    exact piece0 x n c h w
  · obtain rfl : iv = 0 := hi'
    obtain rfl : jv = 1 := hj'
    exact piece1 x n c h w
  · obtain rfl : iv = 0 := hi'
    obtain rfl : jv = 2 := hj'
    exact piece2 x n c h w
  · obtain rfl : iv = 1 := hi'
    obtain rfl : jv = 0 := hj'
    exact piece3 x n c h w
  · obtain rfl : iv = 1 := hi'
    obtain rfl : jv = 1 := hj'
    exact piece4 x n c h w
  · obtain rfl : iv = 1 := hi'
    obtain rfl : jv = 2 := hj'
    exact piece5 x n c h w
  · obtain rfl : iv = 2 := hi'
    obtain rfl : jv = 0 := hj'
    exact piece6 x n c h w
  · obtain rfl : iv = 2 := hi'
    obtain rfl : jv = 1 := hj'
    exact piece7 x n c h w
  · obtain rfl : iv = 2 := hi'
    obtain rfl : jv = 2 := hj'
    exact piece8 x n c h w

/-- Feature d = 9 c + 3 i + j of the stack is channel c of the padded images moved by (i, j). -/
theorem feature_value (x : SX.Idx → EReal) (n : Fin 32) (d : Fin 576) (h w : Fin 56) :
    val_main_v19 (F := Ideal) x (ix5 n (chan d) (⟨d.val % 9, Nat.mod_lt _ (by omega)⟩ : Fin 9) h w)
      = val_main_v0 (F := Ideal) x (ix4 n (chan d) (shift h (dy d)) (shift w (dx d))) :=
  piece_value x n (chan d) _ (dy d) (dx d) rfl (by show d.val % 3 = d.val % 9 % 3; omega) h w

/-! ## Where a feature sits

The stack of views has shape [32, 64, 9, 56, 56]; read row by row as [32, 576, 3136] its feature d = 9 c + k is
channel c of view k, and flattened pixel 56 h + w is pixel (h, w). -/

/-- Feature d at flattened pixel (h, w) of image n sits, in the stack of nine shifted views, at channel d / 9,
    view d % 9, pixel (h, w): the row-major position is the same. -/
theorem idx20_feature (n : Fin 32) (d : Fin 576) (h w : Fin 56) :
    idx_main_v20 (ix3 n d (flat h w)) = ix5 n (chan d) (⟨d.val % 9, Nat.mod_lt _ (by omega)⟩ : Fin 9) h w := by
  have hn := n.isLt
  have hd := d.isLt
  have hh := h.isLt
  have hw := w.isLt
  funext a
  match a with
  | ⟨0, _⟩ => exact Fin.ext (by show ((n.val * 576 + d.val) * 3136 + (h.val * 56 + w.val)) / 1806336 = n.val; omega)
  | ⟨1, _⟩ => exact Fin.ext (by show ((n.val * 576 + d.val) * 3136 + (h.val * 56 + w.val)) / 28224 % 64 = d.val / 9; omega)
  | ⟨2, _⟩ => exact Fin.ext (by show ((n.val * 576 + d.val) * 3136 + (h.val * 56 + w.val)) / 3136 % 9 = d.val % 9; omega)
  | ⟨3, _⟩ => exact Fin.ext (by show ((n.val * 576 + d.val) * 3136 + (h.val * 56 + w.val)) / 56 % 56 = h.val; omega)
  | ⟨4, _⟩ => exact Fin.ext (by show ((n.val * 576 + d.val) * 3136 + (h.val * 56 + w.val)) % 56 = w.val; omega)

/-- Entry (n, o, h, w) of the result sits at flattened pixel 56 h + w of map (n, o). -/
theorem idx34_flat (n : Fin 32) (o : Fin 128) (h w : Fin 56) :
    idx_main_v34 (ix4 n o h w) = ix3 n o (flat h w) := by
  have hn := n.isLt
  have ho := o.isLt
  have hh := h.isLt
  have hw := w.isLt
  funext a
  match a with
  | ⟨0, _⟩ => exact Fin.ext (by show (((n.val * 128 + o.val) * 56 + h.val) * 56 + w.val) / 401408 = n.val; omega)
  | ⟨1, _⟩ => exact Fin.ext (by show (((n.val * 128 + o.val) * 56 + h.val) * 56 + w.val) / 3136 % 128 = o.val; omega)
  | ⟨2, _⟩ => exact Fin.ext (by show (((n.val * 128 + o.val) * 56 + h.val) * 56 + w.val) % 3136 = h.val * 56 + w.val; omega)

/-! ## The pre-activation and the threshold -/

/-- The contraction plus the bias, at flattened pixel (h, w) of map (n, o), is the specification's pre-activation:
    the contraction index is the feature d, the weight is W[o, d], and the other factor is feature d of the stack. -/
theorem preact_value (x : SX.Idx → EReal) (W : SW.Idx → EReal) (b : SB.Idx → EReal)
    (n : Fin 32) (o : Fin 128) (h w : Fin 56) :
    val_main_v26 (F := Ideal) x W b (ix3 n o (flat h w)) = preact (padded x) W b n o h w := by
  rw [val_main_v26_apply]
  show val_main_v23 (F := Ideal) x W (ix3 n o (flat h w)) + val_main_v25 (F := Ideal) b (ix3 n o (flat h w)) = _
  unfold preact
  congr 1
  · -- the contraction: the two leading axes change places, then a sum over the 576 features
    rw [val_main_v23_apply]
    have e23 : idx_main_v23 (ix3 n o (flat h w)) = ix3 o n (flat h w) := by
      funext a
      match a with
      | ⟨0, _⟩ => rfl
      | ⟨1, _⟩ => rfl
      | ⟨2, _⟩ => rfl
    rw [e23, val_main_v22_apply]
    refine Finset.sum_congr rfl fun d _ => ?_
    have el : lidx_main_v22 (ix3 o n (flat h w)) d = ix2 o d := by
      funext a
      match a with
      | ⟨0, _⟩ => rfl
      | ⟨1, _⟩ => rfl
    have er : idx_main_v21 (ridx_main_v22 (ix3 o n (flat h w)) d) = ix3 n d (flat h w) := by
      funext a
      match a with
      | ⟨0, _⟩ => rfl
      | ⟨1, _⟩ => rfl
      | ⟨2, _⟩ => rfl
    rw [el, val_main_v21_apply, er, val_main_v20_apply, idx20_feature, feature_value]
    rfl
  · -- the bias, given two axes of extent one and repeated over images and pixels
    rw [val_main_v25_apply, val_main_v24_apply]
    congr 1
    funext a
    match a with
    | ⟨0, _⟩ => rfl

/-- After the pre-activation z every operation acts entry by entry: s = sin z · sin z, the bit [s > 1/2] read
    unsigned, and s + (bit − s). That is the specification's threshold of z. -/
theorem tail_value (x : SX.Idx → EReal) (W : SW.Idx → EReal) (b : SB.Idx → EReal) (i : SOutFlat.Idx) :
    val_main_v33 (F := Ideal) x W b i = stepR (val_main_v26 (F := Ideal) x W b i) := by
  rw [val_main_v33_apply, val_main_v32_apply, val_main_v31_apply, val_main_v30_apply, val_main_v29_apply,
    val_main_cst_apply, val_main_v28_apply, val_main_v27_apply]
  rfl

end RefValue

/-- The reference's result is the specification of the padded images, the weights and the bias. -/
theorem ref_value (x : SX.Idx → EReal) (W : SW.Idx → EReal) (b : SB.Idx → EReal) :
    Cert.ReferenceIdeal.Read.val_main_v34 (F := Ideal) x W b = G (padded x) W b := by
  funext i
  obtain ⟨n, o, h, w, rfl⟩ : ∃ (n : Fin 32) (o : Fin 128) (h w : Fin 56), i = ix4 n o h w :=
    ⟨i 0, i 1, i 2, i 3, eq_ix4 i⟩
  -- the last reshape reads the flattened map; then the threshold of the pre-activation
  rw [Cert.ReferenceIdeal.Read.val_main_v34_apply, RefValue.idx34_flat, RefValue.tail_value, RefValue.preact_value]
  rfl

end Cert.LogicConv

end
-- ==== Proof.Bridge.lean ====
/-
  The two programs compute the same result. The kernel's result array is the grouped form of the result over the arrays
  its windows read; those arrays are the padded images, the weights regrouped by vertical shift and the bias column, so
  the three shares add up to the full sum over the 576 features; the inputs being finite, that pre-activation is a real
  number, where "cos 2z < 0" and "sin² z > 1/2" are the same condition. The reference's result is the specification read
  one operation at a time.
-/
import proofs.«400736_j21208548507913_3_alg».proof.Defs
import proofs.«400736_j21208548507913_3_alg».proof.Proof.Gen.KernelIdeal.Frame
import proofs.«400736_j21208548507913_3_alg».proof.Proof.Gen.ReferenceIdeal.Run
import proofs.«400736_j21208548507913_3_alg».proof.Proof.Gen.ReferenceIdeal.Read
import proofs.«400736_j21208548507913_3_alg».proof.Proof.Gen.Pre_finite_inputs
import proofs.«400736_j21208548507913_3_alg».proof.Proof.KernelArray
import proofs.«400736_j21208548507913_3_alg».proof.Proof.KernelHost
import proofs.«400736_j21208548507913_3_alg».proof.Proof.Algebra
import proofs.«400736_j21208548507913_3_alg».proof.Proof.Threshold
import proofs.«400736_j21208548507913_3_alg».proof.Proof.Finite
import proofs.«400736_j21208548507913_3_alg».proof.Proof.RefValue

noncomputable section

namespace Cert.LogicConv

open Idealize.ShloMosaic Idealize.ShloMosaic.TcCoe Idealize.ShloMosaic.ValueIdx Idealize.SL.Sem
open Cert.KernelIdeal Cert.KernelIdeal.Gen

/-- Over real inputs, the grouped form of the result over the arrays the kernel's windows read is the specification
    of the arguments: regroup the features, then the two thresholds agree at the real pre-activation. -/
theorem kernel_value (m : (ℓ : Loc nD τ sig) → Buf (Elt Ideal) ℓ) (c : Dev nD)
    (hx : ∀ i, ∃ r : ℝ, (m ((c : Thread nD τ).loc main_arg0) : SX.Idx → EReal) i = (r : EReal))
    (hW : ∀ i, ∃ r : ℝ, (m ((c : Thread nD τ).loc main_arg1) : SW.Idx → EReal) i = (r : EReal))
    (hb : ∀ i, ∃ r : ℝ, (m ((c : Thread nD τ).loc main_arg2) : SB.Idx → EReal) i = (r : EReal)) :
    GK (V m c main_v0) (V m c main_v5) (V m c main_v6)
      = G (padded (m ((c : Thread nD τ).loc main_arg0))) (m ((c : Thread nD τ).loc main_arg1)) (m ((c : Thread nD τ).loc main_arg2)) := by
  funext i
  obtain ⟨n, o, h, w, rfl⟩ : ∃ (n : Fin 32) (o : Fin 128) (h w : Fin 56), i = ix4 n o h w := ⟨i 0, i 1, i 2, i 3, eq_ix4 i⟩
  show stepK (preactB (blockOf (V m c main_v0) n) (V m c main_v5) (V m c main_v6) o h w)
    = stepR (preact (padded (m ((c : Thread nD τ).loc main_arg0))) (m ((c : Thread nD τ).loc main_arg1)) (m ((c : Thread nD τ).loc main_arg2)) n o h w)
  have hsum := preactB_eq_preact (padded (m ((c : Thread nD τ).loc main_arg0))) (m ((c : Thread nD τ).loc main_arg1))
    (m ((c : Thread nD τ).loc main_arg2)) (blockOf (V m c main_v0) n) (V m c main_v5) (V m c main_v6) n o h w
    (fun cc r s => by
      show (V m c main_v0 : SXP.Idx → EReal) (ix4 n cc r s) = _
      rw [V_padded])
    (fun i k => V_grouped m c i o k) (V_column m c o)
  obtain ⟨z, hz⟩ := preact_real (padded (m ((c : Thread nD τ).loc main_arg0))) (m ((c : Thread nD τ).loc main_arg1))
    (m ((c : Thread nD τ).loc main_arg2)) (padded_real _ hx) hW hb n o h w
  rw [hsum, hz]
  exact step_eq z

/-- The algebraic claim: from memories agreeing on the arguments, with finite inputs, both programs end with the
    specification of the arguments in their result arrays. -/
theorem algebraic : Cert.algebraic_KernelIdeal_ReferenceIdeal := by
  intro m ρ m' ρ' hpre hagree
  refine ⟨fun c => G (padded (m ((c : Thread nD τ).loc main_arg0))) (m ((c : Thread nD τ).loc main_arg1))
    (m ((c : Thread nD τ).loc main_arg2)), ?_, ?_⟩
  · refine (θ_run Cert.KernelIdeal.defs _ _).mono (fun _ h c => ⟨(h c).1.trans ?_, (h c).2⟩) (kernel_run m ρ)
    obtain ⟨hx, hW, hb⟩ := real_of_pre _ _ _ (hpre c)
    exact kernel_value m c hx hW hb
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v34_eq, (hagree c).1, (hagree c).2.1, (hagree c).2.2]
    exact ref_value _ _ _

end Cert.LogicConv

end
-- ==== Proof.lean ====
/-
  The certificate of a 3×3 "logic convolution": for 32 images of 64 channels and 56×56 pixels, 128 output channels,
  the result is the indicator of sin² z > 1/2 of the pre-activation z = (zero-padded convolution) + bias.

  The kernel computes it image by image on a grid of 32 points, as three matrix products of the weights grouped by
  vertical shift against shifted views of the padded image, and thresholds with cos 2z < 0; the reference stacks the
  nine shifted views as 576 features, contracts once, and thresholds sin z · sin z against 1/2 in the form
  s + ([s > 1/2] − s). Over the extended reals the two pre-activations are the same sum regrouped, and at finite
  inputs that sum is a real number, where cos 2z = 1 − 2 sin² z makes the two thresholds one condition and
  s + (b − s) = b (Proof/Bridge.lean and the modules it imports).

  The three frames: both kernel programs' frames are the generated frame proofs; the reference has no kernel, and its
  frame is its run with the result dropped. The idealization rewrote nothing, so the preservation claim is trivial.
-/
import proofs.«400736_j21208548507913_3_alg».proof.Defs
import proofs.«400736_j21208548507913_3_alg».proof.Proof.Gen.Kernel
import proofs.«400736_j21208548507913_3_alg».proof.Proof.Gen.Kernel.Skeleton
import proofs.«400736_j21208548507913_3_alg».proof.Proof.Gen.Kernel.Launch
import proofs.«400736_j21208548507913_3_alg».proof.Proof.Gen.Kernel.Points
import proofs.«400736_j21208548507913_3_alg».proof.Proof.Gen.Kernel.Frame
import proofs.«400736_j21208548507913_3_alg».proof.Proof.Gen.KernelIdeal
import proofs.«400736_j21208548507913_3_alg».proof.Proof.Gen.KernelIdeal.Skeleton
import proofs.«400736_j21208548507913_3_alg».proof.Proof.Gen.KernelIdeal.Launch
import proofs.«400736_j21208548507913_3_alg».proof.Proof.Gen.KernelIdeal.Points
import proofs.«400736_j21208548507913_3_alg».proof.Proof.Gen.KernelIdeal.Frame
import proofs.«400736_j21208548507913_3_alg».proof.Proof.Gen.ReferenceIdeal
import proofs.«400736_j21208548507913_3_alg».proof.Proof.Gen.Pre_finite_inputs
import proofs.«400736_j21208548507913_3_alg».proof.Proof.Gen.ReferenceIdeal.Run
import proofs.«400736_j21208548507913_3_alg».proof.Proof.Gen.ReferenceIdeal.Read
import proofs.«400736_j21208548507913_3_alg».proof.Proof.Bridge
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.LogicConv.algebraic⟩

end Cert.Proof

end
